-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x512x512 : Shape := ⟨4, ![16, 9, 512, 512]⟩
abbrev S16x512x512 : Shape := ⟨3, ![16, 512, 512]⟩
abbrev S_ : Shape := ⟨0, ![]⟩

class Facts : Prop where
  bcast_S_S16x9x512x512 : S_.BroadcastsInDim S16x9x512x512 (![] : Fin 0 → Fin S16x9x512x512.rank)
  reducesTo_S16x9x512x512_S_d0_1_2_3 : S16x9x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x9x512x512 .f32) (main_arg1 : IVec S16x512x512 32) : IVec S_ 1 :=
  let main_v0 : FVec F S16x9x512x512 .f32 := Host.absf main_arg0
  let main_cst : FVec F S_ .f32 := constant S_ .f32 0x7F800000#32
  let main_v1 : FVec F S16x9x512x512 .f32 := broadcastInDim S16x9x512x512 ![] bcast_S_S16x9x512x512 main_cst
  let main_v2 : IVec S16x9x512x512 1 := cmpf .olt main_v0 main_v1
  let main_c : IVec S_ 1 := constantI S_ 1 1#1
  let main_v3 : IVec S_ 1 := (fun x v => Host.reduce IntOp.andi x v reducesTo_S16x9x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 9#32
  let main_v6 : IVec S16x512x512 32 := broadcastInDim S16x512x512 ![] bcast_S_S16x512x512 main_c_1
  let main_v7 : IVec S16x512x512 1 := cmpi .slt main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S16x9x512x512 : Shape := ⟨4, ![16, 9, 512, 512]⟩
abbrev S16x512x512 : Shape := ⟨3, ![16, 512, 512]⟩
abbrev S2x8x19 : Shape := ⟨3, ![2, 8, 19]⟩
abbrev S8x9x32x512 : Shape := ⟨4, ![8, 9, 32, 512]⟩
abbrev S8x32x512 : Shape := ⟨3, ![8, 32, 512]⟩
abbrev S1x8x19 : Shape := ⟨3, ![1, 8, 19]⟩
abbrev S8x19 : Shape := ⟨2, ![8, 19]⟩
abbrev S8x1x32x512 : Shape := ⟨4, ![8, 1, 32, 512]⟩
abbrev S1x9x1x1 : Shape := ⟨4, ![1, 9, 1, 1]⟩
abbrev S8x32 : Shape := ⟨2, ![8, 32]⟩
abbrev S8 : Shape := ⟨1, ![8]⟩
abbrev S8x9x32 : Shape := ⟨3, ![8, 9, 32]⟩
abbrev S8x9 : Shape := ⟨2, ![8, 9]⟩
abbrev S8x1 : Shape := ⟨2, ![8, 1]⟩
abbrev S16x19 : Shape := ⟨2, ![16, 19]⟩
abbrev S16x9 : Shape := ⟨2, ![16, 9]⟩
abbrev S16x1 : Shape := ⟨2, ![16, 1]⟩
abbrev S16 : Shape := ⟨1, ![16]⟩
abbrev S_ : Shape := ⟨0, ![]⟩

abbrev nBuf : Space → Nat
  | .hbm => 37
  | .vmem => 7
  | .smem => 0
  | _ => 0

abbrev bufTy : (tb : Table) → Fin (tcTables nBuf tb) → BufTy
  | .hbm, ⟨0, _⟩ => ⟨S16x9x512x512, .f32⟩
  | .hbm, ⟨1, _⟩ => ⟨S16x512x512, .i32⟩
  | .hbm, ⟨2, _⟩ => ⟨S2x8x19, .f32⟩
  | .hbm, ⟨3, _⟩ => ⟨S16x19, .f32⟩
  | .hbm, ⟨4, _⟩ => ⟨S16x9, .f32⟩
  | .hbm, ⟨5, _⟩ => ⟨S16x9, .f32⟩
  | .hbm, ⟨6, _⟩ => ⟨S16x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x9, .f32⟩
  | .hbm, ⟨14, _⟩ => ⟨S16x9, .i1⟩
  | .hbm, ⟨15, _⟩ => ⟨S_, .f32⟩
  | .hbm, ⟨16, _⟩ => ⟨S16x9, .f32⟩
  | .hbm, ⟨17, _⟩ => ⟨S16x9, .f32⟩
  | .hbm, ⟨18, _⟩ => ⟨S_, .f32⟩
  | .hbm, ⟨19, _⟩ => ⟨S16x9, .f32⟩
  | .hbm, ⟨20, _⟩ => ⟨S16x9, .f32⟩
  | .hbm, ⟨21, _⟩ => ⟨S16x9, .f32⟩
  | .hbm, ⟨22, _⟩ => ⟨S_, .f32⟩
  | .hbm, ⟨23, _⟩ => ⟨S_, .f32⟩
  | .hbm, ⟨24, _⟩ => ⟨S16x9, .f32⟩
  | .hbm, ⟨25, _⟩ => ⟨S16x9, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8x9x32x512, .f32⟩
  | .local _ .vmem, ⟨1, _⟩ => ⟨S8x9x32x512, .f32⟩
  | .local _ .vmem, ⟨2, _⟩ => ⟨S8x32x512, .i32⟩
  | .local _ .vmem, ⟨3, _⟩ => ⟨S8x32x512, .i32⟩
  | .local _ .vmem, ⟨4, _⟩ => ⟨S1x8x19, .f32⟩
  | .local _ .vmem, ⟨5, _⟩ => ⟨S1x8x19, .f32⟩
  | .local _ .vmem, ⟨6, _⟩ => ⟨S8x19, .f32⟩
  | _, _ => ⟨S16x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_cst_9 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_25 : BitVec 32 := 0#32
  let v48 : BitVec 1 := Scalar.cmpi .ne v47 c0_i32_25
  v48

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x9x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x19_S8x19_0_0 : ∀ a, (![0, 0] : Fin 2 → Nat) a + S8x19.size a ≤ S8x19.size a
  h_S8x19 : 0 < S8x19.numel
  shapeCasts_S8x19_S8x19 : S8x19.ShapeCasts S8x19
  inb_S8x9x32x512_S8x9x32x512_0_0_0_0 : ∀ a, (![0, 0, 0, 0] : Fin 4 → Nat) a + S8x9x32x512.size a ≤ S8x9x32x512.size a
  h_S8x9x32x512 : 0 < S8x9x32x512.numel
  inb_S8x32x512_S8x32x512_0_0_0 : ∀ a, (![0, 0, 0] : Fin 3 → Nat) a + S8x32x512.size a ≤ S8x32x512.size a
  h_S8x32x512 : 0 < S8x32x512.numel
  reduces_S8x9x32x512_S8x32x512 : S8x9x32x512.Reduces [1] S8x32x512
  shapeCasts_S8x32x512_S8x1x32x512 : S8x32x512.ShapeCasts S8x1x32x512
  broadcasts_S8x1x32x512_S8x9x32x512 : S8x1x32x512.Broadcasts S8x9x32x512
  iota_S1x9x1x1_d1_w32 : S1x9x1x1.Iotas .tc 32 [1]
  broadcasts_S1x9x1x1_S8x9x32x512 : S1x9x1x1.Broadcasts S8x9x32x512
  shapeCasts_S8x1x32x512_S8x32x512 : S8x1x32x512.ShapeCasts S8x32x512
  reduces_S8x32x512_S8x32 : S8x32x512.Reduces [2] S8x32
  reduces_S8x32_S8 : S8x32.Reduces [1] S8
  reduces_S8x9x32x512_S8x9x32 : S8x9x32x512.Reduces [3] S8x9x32
  reduces_S8x9x32_S8x9 : S8x9x32.Reduces [2] S8x9
  shapeCasts_S8_S8x1 : S8.ShapeCasts S8x1
  concatenates_S8x9_S8x9_S8x1_S8x19_d1 : Shape.Concatenates [S8x9, S8x9, S8x1] S8x19 1
  shapeCasts_S8x19_S1x8x19 : S8x19.ShapeCasts S1x8x19
  inb_S1x8x19_S1x8x19_0_0_0 : ∀ a, (![0, 0, 0] : Fin 3 → Nat) a + S1x8x19.size a ≤ S1x8x19.size a
  h_S1x8x19 : 0 < S1x8x19.numel
  shapeCasts_S2x8x19_S16x19 : S2x8x19.ShapeCasts S16x19
  slices_S16x19_S16x9_0_0 : S16x19.Slices ![0, 0] S16x9
  slices_S16x19_S16x9_0_9 : S16x19.Slices ![0, 9] S16x9
  slices_S16x19_S16x1_0_18 : S16x19.Slices ![0, 18] S16x1
  shapeCasts_S16x1_S16 : S16x1.ShapeCasts S16
  reducesTo_S16_S_d0 : S16.ReducesTo [0] S_
  h_S_ : 0 < S_.numel
  bcast_S_S16x9 : S_.BroadcastsInDim S16x9 (![] : Fin 0 → Fin S16x9.rank)
  reducesTo_S16x9_S_d0_1 : S16x9.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x9x32x512.size a ≤ S16x9x512x512.size a
  hwx0_0 : ∀ i : grid0.Coords, EltTy.bits .f32 = 32 ∨ (Rect.block (s := S16x9x512x512) S8x9x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x512.size a ≤ S16x512x512.size a
  hwx0_1 : ∀ i : grid0.Coords, EltTy.bits .i32 = 32 ∨ (Rect.block (s := S16x512x512) S8x32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x19.size a ≤ S2x8x19.size a
  hwx0_2 : ∀ i : grid0.Coords, EltTy.bits .f32 = 32 ∨ (Rect.block (s := S2x8x19) S1x8x19.size (cc0_transform_2 i) (hinb0_2 i)).WholeWords (EltTy.packing .f32)

variable [Facts₀]

abbrev win0_0 : Pipeline.Window sig grid0 :=
  Pipeline.Window.ofSpec (Memref.whole main_arg0) S8x9x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x9x512x512 : Shape := ⟨4, ![16, 9, 512, 512]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S1x9x1x1 : Shape := ⟨4, ![1, 9, 1, 1]⟩
abbrev S16x9 : Shape := ⟨2, ![16, 9]⟩

abbrev nBuf : Space → Nat
  | .hbm => 99
  | .vmem => 0
  | .smem => 0
  | _ => 0

abbrev bufTy : (tb : Table) → Fin (tcTables nBuf tb) → BufTy
  | .hbm, ⟨0, _⟩ => ⟨S16x9x512x512, .f32⟩
  | .hbm, ⟨1, _⟩ => ⟨S16x512x512, .i32⟩
  | .hbm, ⟨2, _⟩ => ⟨S_, .f32⟩
  | .hbm, ⟨3, _⟩ => ⟨S16x512x512, .f32⟩
  | .hbm, ⟨4, _⟩ => ⟨S_, .f32⟩
  | .hbm, ⟨5, _⟩ => ⟨S16x512x512, .f32⟩
  | .hbm, ⟨6, _⟩ => ⟨S16x512x512, .f32⟩
  | .hbm, ⟨7, _⟩ => ⟨S16x1x512x512, .f32⟩
  | .hbm, ⟨8, _⟩ => ⟨S16x9x512x512, .f32⟩
  | .hbm, ⟨9, _⟩ => ⟨S16x9x512x512, .f32⟩
  | .hbm, ⟨10, _⟩ => ⟨S16x9x512x512, .f32⟩
  | .hbm, ⟨11, _⟩ => ⟨S_, .f32⟩
  | .hbm, ⟨12, _⟩ => ⟨S16x512x512, .f32⟩
  | .hbm, ⟨13, _⟩ => ⟨S16x1x512x512, .f32⟩
  | .hbm, ⟨14, _⟩ => ⟨S16x1x512x512, .f32⟩
  | .hbm, ⟨15, _⟩ => ⟨S16x9x512x512, .f32⟩
  | .hbm, ⟨16, _⟩ => ⟨S16x9x512x512, .f32⟩
  | .hbm, ⟨17, _⟩ => ⟨S16x1x512x512, .i32⟩
  | .hbm, ⟨18, _⟩ => ⟨S_, .i32⟩
  | .hbm, ⟨19, _⟩ => ⟨S16x1x512x512, .i32⟩
  | .hbm, ⟨20, _⟩ => ⟨S16x1x512x512, .i1⟩
  | .hbm, ⟨21, _⟩ => ⟨S_, .i32⟩
  | .hbm, ⟨22, _⟩ => ⟨S16x1x512x512, .i32⟩
  | .hbm, ⟨23, _⟩ => ⟨S16x1x512x512, .i32⟩
  | .hbm, ⟨24, _⟩ => ⟨S16x1x512x512, .i32⟩
  | .hbm, ⟨25, _⟩ => ⟨S16x1x512x512x1, .i32⟩
  | .hbm, ⟨26, _⟩ => ⟨S1, .i32⟩
  | .hbm, ⟨27, _⟩ => ⟨S_, .i32⟩
  | .hbm, ⟨28, _⟩ => ⟨S16x1x512x512x1, .i32⟩
  | .hbm, ⟨29, _⟩ => ⟨S16x1x512x512x1, .i1⟩
  | .hbm, ⟨30, _⟩ => ⟨S1x1x1x1x1, .i32⟩
  | .hbm, ⟨31, _⟩ => ⟨S16x1x512x512x1, .i32⟩
  | .hbm, ⟨32, _⟩ => ⟨S16x1x512x512x1, .i1⟩
  | .hbm, ⟨33, _⟩ => ⟨S16x1x512x512x1, .i1⟩
  | .hbm, ⟨34, _⟩ => ⟨S_, .i1⟩
  | .hbm, ⟨35, _⟩ => ⟨S16x1x512x512, .i1⟩
  | .hbm, ⟨36, _⟩ => ⟨S16x1x512x512, .f32⟩
  | .hbm, ⟨37, _⟩ => ⟨S_, .f32⟩
  | .hbm, ⟨38, _⟩ => ⟨S16x1x512x512, .f32⟩
  | .hbm, ⟨39, _⟩ => ⟨S16x1x512x512, .f32⟩
  | .hbm, ⟨40, _⟩ => ⟨S16x512x512, .f32⟩
  | .hbm, ⟨41, _⟩ => ⟨S16x512x512, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16x512x512, .f32⟩
  | .hbm, ⟨48, _⟩ => ⟨S_, .f32⟩
  | .hbm, ⟨49, _⟩ => ⟨S16x512x512, .f32⟩
  | .hbm, ⟨50, _⟩ => ⟨S16x512x512, .f32⟩
  | .hbm, ⟨51, _⟩ => ⟨S16x1x512x512, .f32⟩
  | .hbm, ⟨52, _⟩ => ⟨S16x9x512x512, .f32⟩
  | .hbm, ⟨53, _⟩ => ⟨S16x9x512x512, .f32⟩
  | .hbm, ⟨54, _⟩ => ⟨S16x9x512x512, .f32⟩
  | .hbm, ⟨55, _⟩ => ⟨S_, .f32⟩
  | .hbm, ⟨56, _⟩ => ⟨S16x512x512, .f32⟩
  | .hbm, ⟨57, _⟩ => ⟨S16x1x512x512, .f32⟩
  | .hbm, ⟨58, _⟩ => ⟨S16x9x512x512, .f32⟩
  | .hbm, ⟨59, _⟩ => ⟨S16x9x512x512, .f32⟩
  | .hbm, ⟨60, _⟩ => ⟨S16x1x512x512, .i32⟩
  | .hbm, ⟨61, _⟩ => ⟨S1x9x1x1, .i32⟩
  | .hbm, ⟨62, _⟩ => ⟨S16x9x512x512, .i32⟩
  | .hbm, ⟨63, _⟩ => ⟨S16x9x512x512, .i32⟩
  | .hbm, ⟨64, _⟩ => ⟨S16x9x512x512, .i1⟩
  | .hbm, ⟨65, _⟩ => ⟨S16x9x512x512, .f32⟩
  | .hbm, ⟨66, _⟩ => ⟨S16x9x512x512, .f32⟩
  | .hbm, ⟨67, _⟩ => ⟨S_, .f32⟩
  | .hbm, ⟨68, _⟩ => ⟨S16x9, .f32⟩
  | .hbm, ⟨69, _⟩ => ⟨S_, .f32⟩
  | .hbm, ⟨70, _⟩ => ⟨S16x9, .f32⟩
  | .hbm, ⟨71, _⟩ => ⟨S_, .f32⟩
  | .hbm, ⟨72, _⟩ => ⟨S16x9, .f32⟩
  | .hbm, ⟨73, _⟩ => ⟨S16x9, .f32⟩
  | .hbm, ⟨74, _⟩ => ⟨S_, .f32⟩
  | .hbm, ⟨75, _⟩ => ⟨S16x9, .f32⟩
  | .hbm, ⟨76, _⟩ => ⟨S16x9, .i1⟩
  | .hbm, ⟨77, _⟩ => ⟨S_, .f32⟩
  | .hbm, ⟨78, _⟩ => ⟨S16x9, .f32⟩
  | .hbm, ⟨79, _⟩ => ⟨S16x9, .f32⟩
  | .hbm, ⟨80, _⟩ => ⟨S_, .f32⟩
  | .hbm, ⟨81, _⟩ => ⟨S16x9, .f32⟩
  | .hbm, ⟨82, _⟩ => ⟨S16x9, .f32⟩
  | .hbm, ⟨83, _⟩ => ⟨S16x9, .f32⟩
  | .hbm, ⟨84, _⟩ => ⟨S_, .f32⟩
  | .hbm, ⟨85, _⟩ => ⟨S_, .f32⟩
  | .hbm, ⟨86, _⟩ => ⟨S16x9, .f32⟩
  | .hbm, ⟨87, _⟩ => ⟨S16x9, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S16x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_cst_2 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_3 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v18 : Ref sig .tc := ⟨.hbm, 65, rfl⟩
abbrev main_v19 : Ref sig .tc := ⟨.hbm, 66, rfl⟩
abbrev main_cst_4 : Ref sig .tc := ⟨.hbm, 67, rfl⟩
abbrev main_v20 : Ref sig .tc := ⟨.hbm, 68, rfl⟩
abbrev main_cst_5 : Ref sig .tc := ⟨.hbm, 69, rfl⟩
abbrev main_v21 : Ref sig .tc := ⟨.hbm, 70, rfl⟩
abbrev main_cst_6 : Ref sig .tc := ⟨.hbm, 71, rfl⟩
abbrev main_v22 : Ref sig .tc := ⟨.hbm, 72, rfl⟩
abbrev main_v23 : Ref sig .tc := ⟨.hbm, 73, rfl⟩
abbrev main_cst_7 : Ref sig .tc := ⟨.hbm, 74, rfl⟩
abbrev main_v24 : Ref sig .tc := ⟨.hbm, 75, rfl⟩
abbrev main_v25 : Ref sig .tc := ⟨.hbm, 76, rfl⟩
abbrev main_cst_8 : Ref sig .tc := ⟨.hbm, 77, rfl⟩
abbrev main_v26 : Ref sig .tc := ⟨.hbm, 78, rfl⟩
abbrev main_v27 : Ref sig .tc := ⟨.hbm, 79, rfl⟩
abbrev main_cst_9 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_cst_12 : Ref sig .tc := ⟨.hbm, 90, rfl⟩
abbrev main_v33 : Ref sig .tc := ⟨.hbm, 91, rfl⟩
abbrev main_cst_13 : Ref sig .tc := ⟨.hbm, 92, rfl⟩
abbrev main_v34 : Ref sig .tc := ⟨.hbm, 93, rfl⟩
abbrev main_cst_14 : Ref sig .tc := ⟨.hbm, 94, rfl⟩
abbrev main_v35 : Ref sig .tc := ⟨.hbm, 95, rfl⟩
abbrev main_cst_15 : Ref sig .tc := ⟨.hbm, 96, rfl⟩
abbrev main_v36 : Ref sig .tc := ⟨.hbm, 97, rfl⟩
abbrev main_v37 : Ref sig .tc := ⟨.hbm, 98, rfl⟩

abbrev nD : Nat := 1
abbrev τ : Topo := Topo.v7x

variable {F : FTy → Type} [FloatOps F]

class Facts₀ : Prop where
  reducesTo_S16x9x512x512_S16x512x512_d1 : S16x9x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x9x512x512_0_1_2_3 : S16x1x512x512.BroadcastsInDim S16x9x512x512 (![0, 1, 2, 3] : Fin 4 → Fin S16x9x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  reducesTo_S16x512x512_S_d0_1_2 : S16x512x512.ReducesTo [0, 1, 2] S_
  bcast_S1x9x1x1_S16x9x512x512_0_1_2_3 : S1x9x1x1.BroadcastsInDim S16x9x512x512 (![0, 1, 2, 3] : Fin 4 → Fin S16x9x512x512.rank)
  reducesTo_S16x9x512x512_S16x9_d2_3 : S16x9x512x512.ReducesTo [2, 3] S16x9
  bcast_S_S16x9 : S_.BroadcastsInDim S16x9 (![] : Fin 0 → Fin S16x9.rank)
  reducesTo_S16x9_S_d0_1 : S16x9.ReducesTo [0, 1] S_
  gather_S16x9x512x512_S16x1x512x512x1_S16x1x512x512_n_1_023_023_1_4_1111_wf : GatherDims.WF S16x9x512x512 S16x1x512x512x1 S16x1x512x512 [] [1] [0, 2, 3] [1] [0, 2, 3] 4 ![1, 1, 1, 1]

variable [Facts₀]

def gather_S16x9x512x512_S16x1x512x512x1_S16x1x512x512_n_1_023_023_1_4_1111 : GatherDims S16x9x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x9x512x512_S16x1x512x512x1_S16x1x512x512_n_1_023_023_1_4_1111_wf

class Facts : Prop extends Facts₀ where

variable [Facts]
-- ==== Proof.Spec.lean ====
/-
  The mathematics both programs compute, stated once over the extended reals and for any extents
  (batch B, classes C, height H, width W), so that it reads the same on a whole array and on one block of it.

  At a pixel (b, h, w) the class scores x(b, ·, h, w) are shifted by their maximum, exponentiated and summed; the
  softmax probability of class c is its exponential over that sum, and the cross-entropy of the pixel is the logarithm
  of the sum minus the shifted score of the labelled class — written as a sum over the classes of the shifted score
  where the label equals the class and zero elsewhere, so that a label matching no class contributes nothing.
  Per batch row and class: the intersection (the probabilities summed over the pixels labelled with the class) and the
  cardinality (all probabilities of the class plus the number of pixels labelled with it). Last, the closing
  arithmetic on those three: the mean cross-entropy, the dice quotient per (row, class) with its guard, their mean,
  and the weighted sum of the two losses.
-/
import Idealize.ShloMosaic.PureOps.Ideal
import Idealize.ShloMosaic.Lib.ValueIdx

noncomputable section

open scoped BigOperators

namespace Cert.Spec

open Idealize.ShloMosaic Idealize.ShloMosaic.ValueIdx

variable {B C H W : Nat}

/-- The largest of a pixel's class scores, as the fold of `max` from −∞ over the classes. -/
def top (x : (⟨4, ![B, C, H, W]⟩ : Shape).Idx → EReal) (b : Fin B) (h : Fin H) (w : Fin W) : EReal :=
  (Finset.univ : Finset (Fin C)).fold max (Ideal.ofBits .f32 0xFF800000#32) (fun c => x (ix4 b c h w))

/-- A class score minus the pixel's largest. -/
def shifted (x : (⟨4, ![B, C, H, W]⟩ : Shape).Idx → EReal) (b : Fin B) (c : Fin C) (h : Fin H) (w : Fin W) : EReal :=
  x (ix4 b c h w) - top x b h w

/-- Its exponential. -/
def ex (x : (⟨4, ![B, C, H, W]⟩ : Shape).Idx → EReal) (b : Fin B) (c : Fin C) (h : Fin H) (w : Fin W) : EReal :=
  Ideal.exp (shifted x b c h w)

/-- The exponentials of a pixel summed over the classes. -/
def tot (x : (⟨4, ![B, C, H, W]⟩ : Shape).Idx → EReal) (b : Fin B) (h : Fin H) (w : Fin W) : EReal :=
  ∑ c : Fin C, ex x b c h w

/-- The softmax probability of class `c` at a pixel. -/
def prob (x : (⟨4, ![B, C, H, W]⟩ : Shape).Idx → EReal) (b : Fin B) (c : Fin C) (h : Fin H) (w : Fin W) : EReal :=
  Ideal.div (ex x b c h w) (tot x b h w)

/-- The pixel is labelled with class `c`. -/
def hit (t : (⟨3, ![B, H, W]⟩ : Shape).Idx → BitVec 32) (b : Fin B) (c : Fin C) (h : Fin H) (w : Fin W) : Prop :=
  t (ix3 b h w) = BitVec.ofNat 32 c.val

instance (t : (⟨3, ![B, H, W]⟩ : Shape).Idx → BitVec 32) (b : Fin B) (c : Fin C) (h : Fin H) (w : Fin W) :
    Decidable (hit t b c h w) := by unfold hit; infer_instance

/-- The shifted score of the labelled class: over the classes, the shifted score where the label is the class. -/
def picked (x : (⟨4, ![B, C, H, W]⟩ : Shape).Idx → EReal) (t : (⟨3, ![B, H, W]⟩ : Shape).Idx → BitVec 32)
    (b : Fin B) (h : Fin H) (w : Fin W) : EReal :=
  ∑ c : Fin C, if hit t b c h w then shifted x b c h w else 0

/-- The pixel's cross-entropy. -/
def ce (x : (⟨4, ![B, C, H, W]⟩ : Shape).Idx → EReal) (t : (⟨3, ![B, H, W]⟩ : Shape).Idx → BitVec 32)
    (b : Fin B) (h : Fin H) (w : Fin W) : EReal :=
  Ideal.log (tot x b h w) - picked x t b h w

/-- A row's cross-entropy summed over its pixels. -/
def ceRow (x : (⟨4, ![B, C, H, W]⟩ : Shape).Idx → EReal) (t : (⟨3, ![B, H, W]⟩ : Shape).Idx → BitVec 32) (b : Fin B) : EReal :=
  ∑ h : Fin H, ∑ w : Fin W, ce x t b h w

/-- The intersection of row `b` and class `c`. -/
def inter (x : (⟨4, ![B, C, H, W]⟩ : Shape).Idx → EReal) (t : (⟨3, ![B, H, W]⟩ : Shape).Idx → BitVec 32) (b : Fin B) (c : Fin C) : EReal :=
  ∑ h : Fin H, ∑ w : Fin W, if hit t b c h w then prob x b c h w else 0

/-- The cardinality of row `b` and class `c`. -/
def card (x : (⟨4, ![B, C, H, W]⟩ : Shape).Idx → EReal) (t : (⟨3, ![B, H, W]⟩ : Shape).Idx → BitVec 32) (b : Fin B) (c : Fin C) : EReal :=
  (∑ h : Fin H, ∑ w : Fin W, prob x b c h w) + ∑ h : Fin H, ∑ w : Fin W, if hit t b c h w then (1 : EReal) else 0

/-- The three per-row statistics laid side by side, as the kernel keeps them: columns `0 … C−1` the intersections,
    `C … 2C−1` the cardinalities, column `2C` the row's cross-entropy sum. -/
def statRow (x : (⟨4, ![B, C, H, W]⟩ : Shape).Idx → EReal) (t : (⟨3, ![B, H, W]⟩ : Shape).Idx → BitVec 32)
    (b : Fin B) (s : Nat) : EReal :=
  if h1 : s < C then inter x t b ⟨s, h1⟩
  else if h2 : s - C < C then card x t b ⟨s - C, h2⟩
  else ceRow x t b

/-- Block (g, j) of the scores: rows `8g … 8g+7`, pixel rows `32j … 32j+31`. -/
def xBlock (x : (⟨4, ![16, 9, 512, 512]⟩ : Shape).Idx → EReal) (g : Fin 2) (j : Fin 16) :
    (⟨4, ![8, 9, 32, 512]⟩ : Shape).Idx → EReal :=
  fun y => x (ix4 ⟨8 * g.val + (y 0).val, by have h8 : (y 0).val < 8 := (y 0).isLt; have := g.isLt; show _ < 16; omega⟩ (y 1)
    ⟨32 * j.val + (y 2).val, by have h32 : (y 2).val < 32 := (y 2).isLt; have := j.isLt; show _ < 512; omega⟩ (y 3))

/-- Block (g, j) of the labels. -/
def tBlock (t : (⟨3, ![16, 512, 512]⟩ : Shape).Idx → BitVec 32) (g : Fin 2) (j : Fin 16) :
    (⟨3, ![8, 32, 512]⟩ : Shape).Idx → BitVec 32 :=
  fun y => t (ix3 ⟨8 * g.val + (y 0).val, by have h8 : (y 0).val < 8 := (y 0).isLt; have := g.isLt; show _ < 16; omega⟩
    ⟨32 * j.val + (y 1).val, by have h32 : (y 1).val < 32 := (y 1).isLt; have := j.isLt; show _ < 512; omega⟩ (y 2))

/-- The closing arithmetic, for any float values: from the intersections `I`, the cardinalities `Cd` (both [16, 9])
    and the total cross-entropy `S`, the weighted loss. The shape facts are arguments, so that either program's
    own witnesses fit. -/
def tailOf {F : FTy → Type} [FloatOps F]
    (hb : (⟨0, ![]⟩ : Shape).BroadcastsInDim ⟨2, ![16, 9]⟩ (![] : Fin 0 → Fin 2))
    (hr : (⟨2, ![16, 9]⟩ : Shape).ReducesTo [0, 1] ⟨0, ![]⟩) (h0 : 0 < (⟨0, ![]⟩ : Shape).numel)
    (I Cd : FVec F ⟨2, ![16, 9]⟩ .f32) (S : FVec F ⟨0, ![]⟩ .f32) : FVec F ⟨0, ![]⟩ .f32 :=
  addf (mulf (constant ⟨0, ![]⟩ .f32 0x3F333333#32) (Host.divf S (constant ⟨0, ![]⟩ .f32 0x4A800000#32)))
    (mulf (constant ⟨0, ![]⟩ .f32 0x3E99999A#32)
      (subf (constant ⟨0, ![]⟩ .f32 0x3F800000#32)
        (Host.divf
          (Host.reduceAdd
            (select (cmpf .ogt Cd (broadcastInDim ⟨2, ![16, 9]⟩ ![] hb (constant ⟨0, ![]⟩ .f32 0x00000000#32)))
              (Host.divf (mulf (broadcastInDim ⟨2, ![16, 9]⟩ ![] hb (constant ⟨0, ![]⟩ .f32 0x40000000#32)) I)
                (addf Cd (broadcastInDim ⟨2, ![16, 9]⟩ ![] hb (constant ⟨0, ![]⟩ .f32 0x3727C5AC#32))))
              (broadcastInDim ⟨2, ![16, 9]⟩ ![] hb (constant ⟨0, ![]⟩ .f32 0x3F800000#32)))
            (constant ⟨0, ![]⟩ .f32 0x00000000#32) hr h0)
          (constant ⟨0, ![]⟩ .f32 0x43100000#32))))

end Cert.Spec

end
-- ==== Proof.KPixel.lean ====
/-
  The kernel body's per-pixel values, read at one entry of a block over the extended reals: the score shifted by the
  pixel's largest, its exponential, the exponentials' sum over the classes, the softmax probability, and the bit that
  says the pixel's label is the class.
-/
import proofs.«421444_j54382875902255_3_alg».proof.Proof.Gen.KernelIdeal.Skeleton
import proofs.«421444_j54382875902255_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

open scoped BigOperators

namespace Cert.KPixel

open Idealize.ShloMosaic Idealize.ShloMosaic.ValueIdx Cert.KernelIdeal Cert.KernelIdeal.Gen

/-- The pixel (r, h, w) of the class-reduced block with class k put back on the class axis is the entry (r, k, h, w). -/
private theorem lift_class (hR : S8x9x32x512.Reduces [1] S8x32x512) (r : Fin 8) (h : Fin 32) (w : Fin 512) (k : Fin 9) :
    hR.lift (ix3 r h w) k = ix4 r k h w := by
  funext a
  match a with
  | ⟨0, _⟩ => exact Fin.ext rfl
  | ⟨1, _⟩ => exact Fin.ext rfl
  | ⟨2, _⟩ => exact Fin.ext rfl
  | ⟨3, _⟩ => exact Fin.ext rfl

/-- An [8, 32, 512] array viewed as [8, 1, 32, 512] reads, at (r, u, h, w), the array at (r, h, w): both entries have
    the row-major position (32 r + h) 512 + w, the unit coordinate u being 0. -/
private theorem cast_unit {α : Type} (x : S8x32x512.Idx → α) (hc : S8x32x512.ShapeCasts S8x1x32x512)
    (r : Fin 8) (u : Fin 1) (h : Fin 32) (w : Fin 512) :
    shapeCast S8x1x32x512 x hc (ix4 r u h w) = x (ix3 r h w) :=
  shapeCast_apply x hc _ _ (by
    have hu : u.val = 0 := by omega
    rw [Shape.rowMajor_val_three, Shape.rowMajor_val_four]
    show (r.val * 32 + h.val) * 512 + w.val = ((r.val * 1 + u.val) * 32 + h.val) * 512 + w.val
    rw [hu, Nat.mul_one, Nat.add_zero])

/-- An [8, 1, 32, 512] array repeated over the nine classes reads, at (r, c, h, w), the array at (r, 0, h, w). -/
private theorem bcast_class {α : Type} (x : S8x1x32x512.Idx → α) (hb : S8x1x32x512.Broadcasts S8x9x32x512)
    (r : Fin 8) (c : Fin 9) (h : Fin 32) (w : Fin 512) :
    broadcastTo S8x9x32x512 x hb (ix4 r c h w) = x (ix4 r (0 : Fin 1) h w) := by
  refine broadcastTo_apply x hb (ix4 r c h w) (ix4 r (0 : Fin 1) h w) fun ax => ?_
  match ax with
  | ⟨0, _⟩ => rfl
  | ⟨1, _⟩ => rfl
  | ⟨2, _⟩ => rfl
  | ⟨3, _⟩ => rfl

/-- A [1, 9, 1, 1] array repeated over the rows and the pixels reads, at (r, c, h, w), the array at (0, c, 0, 0). -/
private theorem bcast_rows_pixels {α : Type} (x : S1x9x1x1.Idx → α) (hb : S1x9x1x1.Broadcasts S8x9x32x512)
    (r : Fin 8) (c : Fin 9) (h : Fin 32) (w : Fin 512) :
    broadcastTo S8x9x32x512 x hb (ix4 r c h w) = x (ix4 (0 : Fin 1) c (0 : Fin 1) (0 : Fin 1)) := by
  refine broadcastTo_apply x hb (ix4 r c h w) (ix4 (0 : Fin 1) c (0 : Fin 1) (0 : Fin 1)) fun ax => ?_
  match ax with
  | ⟨0, _⟩ => rfl
  | ⟨1, _⟩ => rfl
  | ⟨2, _⟩ => rfl
  | ⟨3, _⟩ => rfl

/-- An integer comparison of two arrays is the comparison of their entries. -/
private theorem cmpi_at {s : Shape} {n : Nat} (p : CmpIPredicate) (a b : IVec s n) (i : s.Idx) :
    cmpi p a b i = IntOp.cmpi p (a i) (b i) := rfl

/-- The shifted score at an entry of the block. -/
theorem pay4_apply (xb : Vec Ideal S8x9x32x512 .f32) (r : Fin 8) (c : Fin 9) (h : Fin 32) (w : Fin 512) :
    k0_pay4 (F := Ideal) xb (ix4 r c h w) = Cert.Spec.shifted (B := 8) (C := 9) (H := 32) (W := 512) xb r c h w := by
  unfold k0_pay4
  -- the difference of the entries: the score, and the pixel's maximum repeated over the classes
  refine (subf_apply _ _ _).trans ?_
  unfold Cert.Spec.shifted Cert.Spec.top
  refine congrArg (fun t => xb (ix4 r c h w) - t) ?_
  refine (bcast_class _ _ r c h w).trans ?_
  refine (cast_unit _ _ r 0 h w).trans ?_
  -- the maximum over the class axis is the fold of max from −∞ over the nine classes
  refine (Ideal.multiReduction_maximumf_single xb _ _ _ _ (ix3 r h w)).trans ?_
  exact congrArg (fun f => (Finset.univ : Finset (Fin 9)).fold max (Ideal.ofBits .f32 0xFF800000#32) f)
    (funext fun k => congrArg xb (lift_class _ r h w k))

/-- Its exponential. -/
theorem pay5_apply (xb : Vec Ideal S8x9x32x512 .f32) (r : Fin 8) (c : Fin 9) (h : Fin 32) (w : Fin 512) :
    k0_pay5 (F := Ideal) xb (ix4 r c h w) = Cert.Spec.ex (B := 8) (C := 9) (H := 32) (W := 512) xb r c h w := by
  unfold k0_pay5 Cert.Spec.ex
  exact congrArg Ideal.exp (pay4_apply xb r c h w)

/-- The exponentials of a pixel summed over the nine classes (kept with a unit class axis). -/
theorem pay6_apply (xb : Vec Ideal S8x9x32x512 .f32) (r : Fin 8) (h : Fin 32) (w : Fin 512) :
    k0_pay6 (F := Ideal) xb (ix4 r (0 : Fin 1) h w) = Cert.Spec.tot (B := 8) (C := 9) (H := 32) (W := 512) xb r h w := by
  unfold k0_pay6
  refine (cast_unit _ _ r 0 h w).trans ?_
  -- the sum over the class axis is the sum over the nine classes of the entries (r, k, h, w)
  refine (Ideal.multiReduction_add_single (k0_pay5 (F := Ideal) xb) _ _ _ _ (ix3 r h w)).trans ?_
  unfold Cert.Spec.tot
  show ∑ k : Fin 9, _ = ∑ k : Fin 9, _
  exact Finset.sum_congr rfl fun k _ =>
    (congrArg (k0_pay5 (F := Ideal) xb) (lift_class _ r h w k)).trans (pay5_apply xb r k h w)

/-- The softmax probability. -/
theorem pay7_apply (xb : Vec Ideal S8x9x32x512 .f32) (r : Fin 8) (c : Fin 9) (h : Fin 32) (w : Fin 512) :
    k0_pay7 (F := Ideal) xb (ix4 r c h w) = Cert.Spec.prob (B := 8) (C := 9) (H := 32) (W := 512) xb r c h w := by
  unfold k0_pay7
  -- the quotient of the entries: the exponential, and the pixel's sum repeated over the classes
  refine (divf_apply _ _ _).trans ?_
  unfold Cert.Spec.prob
  exact congrArg₂ Ideal.div (pay5_apply xb r c h w) ((bcast_class _ _ r c h w).trans (pay6_apply xb r h w))

/-- The label-is-this-class bit. -/
theorem pay8_apply (tb : Vec Ideal S8x32x512 .i32) (r : Fin 8) (c : Fin 9) (h : Fin 32) (w : Fin 512) :
    k0_pay8 (F := Ideal) tb (ix4 r c h w) = if Cert.Spec.hit (B := 8) (C := 9) (H := 32) (W := 512) tb r c h w then 1#1 else 0#1 := by
  unfold k0_pay8
  refine (cmpi_at _ _ _ _).trans ?_
  -- the left operand at (r, c, h, w) is the pixel's label
  have e1 : broadcastTo S8x9x32x512 (shapeCast S8x1x32x512 tb shapeCasts_S8x32x512_S8x1x32x512)
      broadcasts_S8x1x32x512_S8x9x32x512 (ix4 r c h w) = tb (ix3 r h w) :=
    (bcast_class _ _ r c h w).trans (cast_unit _ _ r 0 h w)
  -- the right operand at (r, c, h, w) is the class number c as a 32-bit word
  have e2 : broadcastTo S8x9x32x512 (iota .tc S1x9x1x1 32 [1] iota_S1x9x1x1_d1_w32)
      broadcasts_S1x9x1x1_S8x9x32x512 (ix4 r c h w) = BitVec.ofNat 32 c.val :=
    (bcast_rows_pixels _ _ r c h w).trans (iota_single_apply _ _ _ _ _ _)
  refine (congrArg₂ (IntOp.cmpi .eq) e1 e2).trans ?_
  -- the equality test of two words is the bit 1 exactly when they are equal
  by_cases hh : Cert.Spec.hit (B := 8) (C := 9) (H := 32) (W := 512) tb r c h w
  · rw [if_pos hh]
    exact StableHlo.Predicate.cmpi_eq_iff.2 hh
  · rw [if_neg hh]
    exact eq_zero_of_ne_one fun h1 => hh (StableHlo.Predicate.cmpi_eq_iff.1 h1)

end Cert.KPixel

end
-- ==== Proof.KStats.lean ====
/-
  What one run of the kernel body adds to the carried statistics: entry (r, s) of the stored block is what the scratch
  held there plus the block's statistic — an intersection for the first nine columns, a cardinality for the next nine,
  the row's cross-entropy sum for the last.
-/
import proofs.«421444_j54382875902255_3_alg».proof.Proof.KPixel

noncomputable section

open scoped BigOperators

namespace Cert.KStats

open Idealize.ShloMosaic Idealize.ShloMosaic.ValueIdx Cert.KernelIdeal Cert.KernelIdeal.Gen

/-! ## Sums along one axis, read at an entry

A sum along one axis of a block, at an entry of the result, is the sum over that axis's coordinate of the block at the
entry with the coordinate put back in its place. -/

/-- The index over (r, c, h) with w put on the last axis. -/
theorem lift_w (hR : S8x9x32x512.Reduces [3] S8x9x32) (r : Fin 8) (c : Fin 9) (h : Fin 32) (w : Fin 512) :
    hR.lift (ix3 r c h) w = ix4 r c h w := by
  funext d
  match d with
  | ⟨0, _⟩ => rfl
  | ⟨1, _⟩ => rfl
  | ⟨2, _⟩ => rfl
  | ⟨3, _⟩ => rfl

theorem lift_h (hR : S8x9x32.Reduces [2] S8x9) (r : Fin 8) (c : Fin 9) (h : Fin 32) :
    hR.lift (ix2 r c) h = ix3 r c h := by
  funext d
  match d with
  | ⟨0, _⟩ => rfl
  | ⟨1, _⟩ => rfl
  | ⟨2, _⟩ => rfl

theorem lift_c (hR : S8x9x32x512.Reduces [1] S8x32x512) (r : Fin 8) (c : Fin 9) (h : Fin 32) (w : Fin 512) :
    hR.lift (ix3 r h w) c = ix4 r c h w := by
  funext d
  match d with
  | ⟨0, _⟩ => rfl
  | ⟨1, _⟩ => rfl
  | ⟨2, _⟩ => rfl
  | ⟨3, _⟩ => rfl

theorem lift_w3 (hR : S8x32x512.Reduces [2] S8x32) (r : Fin 8) (h : Fin 32) (w : Fin 512) :
    hR.lift (ix2 r h) w = ix3 r h w := by
  funext d
  match d with
  | ⟨0, _⟩ => rfl
  | ⟨1, _⟩ => rfl
  | ⟨2, _⟩ => rfl

theorem lift_h2 (hR : S8x32.Reduces [1] S8) (r : Fin 8) (h : Fin 32) :
    hR.lift (ix1 r) h = ix2 r h := by
  funext d
  match d with
  | ⟨0, _⟩ => rfl
  | ⟨1, _⟩ => rfl

/-- A sum over the last axis of a [8, 9, 32, 512] block. -/
theorem red_w (f : FVec Ideal S8x9x32x512 .f32) (hR : S8x9x32x512.Reduces [3] S8x9x32) (hφ : FKind.Formats .f32)
    (hacc : (0x00000000#32 : BitVec 32) = FKind.add.neutral .f32 hφ) (r : Fin 8) (c : Fin 9) (h : Fin 32) :
    multiReduction (F := Ideal) .add [3] S8x9x32 f 0x00000000#32 hR hφ hacc (ix3 r c h) = ∑ w : Fin 512, f (ix4 r c h w) := by
  refine (Ideal.multiReduction_add_single f _ hR hφ hacc (ix3 r c h)).trans ?_
  exact Finset.sum_congr rfl (fun w _ => congrArg f (lift_w hR r c h w))

theorem red_h (f : FVec Ideal S8x9x32 .f32) (hR : S8x9x32.Reduces [2] S8x9) (hφ : FKind.Formats .f32)
    (hacc : (0x00000000#32 : BitVec 32) = FKind.add.neutral .f32 hφ) (r : Fin 8) (c : Fin 9) :
    multiReduction (F := Ideal) .add [2] S8x9 f 0x00000000#32 hR hφ hacc (ix2 r c) = ∑ h : Fin 32, f (ix3 r c h) := by
  refine (Ideal.multiReduction_add_single f _ hR hφ hacc (ix2 r c)).trans ?_
  exact Finset.sum_congr rfl (fun h _ => congrArg f (lift_h hR r c h))

theorem red_c (f : FVec Ideal S8x9x32x512 .f32) (hR : S8x9x32x512.Reduces [1] S8x32x512) (hφ : FKind.Formats .f32)
    (hacc : (0x00000000#32 : BitVec 32) = FKind.add.neutral .f32 hφ) (r : Fin 8) (h : Fin 32) (w : Fin 512) :
    multiReduction (F := Ideal) .add [1] S8x32x512 f 0x00000000#32 hR hφ hacc (ix3 r h w) = ∑ c : Fin 9, f (ix4 r c h w) := by
  refine (Ideal.multiReduction_add_single f _ hR hφ hacc (ix3 r h w)).trans ?_
  exact Finset.sum_congr rfl (fun c _ => congrArg f (lift_c hR r c h w))

theorem red_w3 (f : FVec Ideal S8x32x512 .f32) (hR : S8x32x512.Reduces [2] S8x32) (hφ : FKind.Formats .f32)
    (hacc : (0x00000000#32 : BitVec 32) = FKind.add.neutral .f32 hφ) (r : Fin 8) (h : Fin 32) :
    multiReduction (F := Ideal) .add [2] S8x32 f 0x00000000#32 hR hφ hacc (ix2 r h) = ∑ w : Fin 512, f (ix3 r h w) := by
  refine (Ideal.multiReduction_add_single f _ hR hφ hacc (ix2 r h)).trans ?_
  exact Finset.sum_congr rfl (fun w _ => congrArg f (lift_w3 hR r h w))

theorem red_h2 (f : FVec Ideal S8x32 .f32) (hR : S8x32.Reduces [1] S8) (hφ : FKind.Formats .f32)
    (hacc : (0x00000000#32 : BitVec 32) = FKind.add.neutral .f32 hφ) (r : Fin 8) :
    multiReduction (F := Ideal) .add [1] S8 f 0x00000000#32 hR hφ hacc (ix1 r) = ∑ h : Fin 32, f (ix2 r h) := by
  refine (Ideal.multiReduction_add_single f _ hR hφ hacc (ix1 r)).trans ?_
  exact Finset.sum_congr rfl (fun h _ => congrArg f (lift_h2 hR r h))

/-! ## The per-row statistics of one block -/

/-- A select on the bit of a decidable fact picks by the fact. -/
theorem select_bit (p : Prop) [Decidable p] (a b : EReal) :
    Scalar.select (if p then 1#1 else 0#1) a b = if p then a else b := by
  split
  · exact select_one a b
  · exact select_zero a b

/-- The zero word read as an extended real. -/
theorem zero_word : (FloatOps.ofBits (F := Ideal) .f32 0x00000000#32 : EReal) = 0 := Ideal.ofBits_zero_f32

/-- The word of 1.0 read as an extended real. -/
theorem one_word : (FloatOps.ofBits (F := Ideal) .f32 0x3F800000#32 : EReal) = 1 :=
  IdealRules.sign_bit.ideal_onePat .f32

/-- The block's intersections. -/
theorem pay10_apply (xb : Vec Ideal S8x9x32x512 .f32) (tb : Vec Ideal S8x32x512 .i32) (r : Fin 8) (c : Fin 9) :
    k0_pay10 (F := Ideal) xb tb (ix2 r c) = Cert.Spec.inter (B := 8) (C := 9) (H := 32) (W := 512) xb tb r c := by
  unfold k0_pay10
  refine (red_h _ _ _ _ r c).trans ?_
  unfold Cert.Spec.inter
  refine Finset.sum_congr rfl (fun h _ => ?_)
  refine (red_w _ _ _ _ r c h).trans ?_
  refine Finset.sum_congr rfl (fun w _ => ?_)
  rw [select_apply, broadcast_apply, KPixel.pay8_apply, KPixel.pay7_apply, select_bit]
  exact if_congr Iff.rfl rfl zero_word

/-- The block's probabilities summed over the pixels. -/
theorem pay11_apply (xb : Vec Ideal S8x9x32x512 .f32) (r : Fin 8) (c : Fin 9) :
    k0_pay11 (F := Ideal) xb (ix2 r c)
      = ∑ h : Fin 32, ∑ w : Fin 512, Cert.Spec.prob (B := 8) (C := 9) (H := 32) (W := 512) xb r c h w := by
  unfold k0_pay11
  refine (red_h _ _ _ _ r c).trans ?_
  refine Finset.sum_congr rfl (fun h _ => ?_)
  refine (red_w _ _ _ _ r c h).trans ?_
  exact Finset.sum_congr rfl (fun w _ => KPixel.pay7_apply xb r c h w)

/-- A [8, 1, 32, 512] block viewed [8, 32, 512] reads (r, h, w) at (r, 0, h, w). -/
theorem cast_drop_mid {α : Type} (x : S8x1x32x512.Idx → α) (hc : S8x1x32x512.ShapeCasts S8x32x512)
    (r : Fin 8) (h : Fin 32) (w : Fin 512) :
    shapeCast S8x32x512 x hc (ix3 r h w) = x (ix4 r (0 : Fin 1) h w) :=
  shapeCast_apply x hc _ _ (by
    rw [Shape.rowMajor_val_four, Shape.rowMajor_val_three]
    show ((r.val * 1 + 0) * 32 + h.val) * 512 + w.val = (r.val * 32 + h.val) * 512 + w.val
    rw [Nat.mul_one, Nat.add_zero])

/-- A row's cross-entropy sum. -/
theorem pay9_apply (xb : Vec Ideal S8x9x32x512 .f32) (tb : Vec Ideal S8x32x512 .i32) (r : Fin 8) :
    k0_pay9 (F := Ideal) xb tb (ix1 r) = Cert.Spec.ceRow (B := 8) (C := 9) (H := 32) (W := 512) xb tb r := by
  unfold k0_pay9
  refine (red_h2 _ _ _ _ r).trans ?_
  unfold Cert.Spec.ceRow
  refine Finset.sum_congr rfl (fun h _ => ?_)
  refine (red_w3 _ _ _ _ r h).trans ?_
  refine Finset.sum_congr rfl (fun w _ => ?_)
  rw [subf_apply]
  unfold Cert.Spec.ce Cert.Spec.picked
  refine congrArg₂ (fun a b : EReal => a - b) ?_ ?_
  · refine (cast_drop_mid _ _ r h w).trans ?_
    show Ideal.log (k0_pay6 (F := Ideal) xb (ix4 r (0 : Fin 1) h w)) = _
    rw [KPixel.pay6_apply]
  · refine (red_c _ _ _ _ r h w).trans ?_
    refine Finset.sum_congr rfl (fun c _ => ?_)
    rw [select_apply, broadcast_apply, KPixel.pay8_apply, KPixel.pay4_apply, select_bit]
    exact if_congr Iff.rfl rfl zero_word

/-- An [8] vector viewed [8, 1] reads (r, 0) at r. -/
theorem cast_col {α : Type} (x : S8.Idx → α) (hc : S8.ShapeCasts S8x1) (r : Fin 8) (u : Fin 1) :
    shapeCast S8x1 x hc (ix2 r u) = x (ix1 r) :=
  shapeCast_apply x hc _ _ (by
    have hu : u.val = 0 := by omega
    rw [Shape.rowMajor_val_two, Shape.rowMajor_val_one]
    show r.val = r.val * 1 + u.val
    rw [hu, Nat.mul_one, Nat.add_zero])

/-- The number of the block's pixels labelled with the class: the double sum of the selected ones. -/
theorem count_apply (tb : Vec Ideal S8x32x512 .i32) (hR3 : S8x9x32x512.Reduces [3] S8x9x32) (hR2 : S8x9x32.Reduces [2] S8x9)
    (hφ : FKind.Formats .f32) (hacc : (0x00000000#32 : BitVec 32) = FKind.add.neutral .f32 hφ) (r : Fin 8) (c : Fin 9) :
    multiReduction (F := Ideal) .add [2] S8x9
        (multiReduction (F := Ideal) .add [3] S8x9x32
          (select (k0_pay8 (F := Ideal) tb) (k0_pay12 (F := Ideal)) (k0_pay13 (F := Ideal))) 0x00000000#32 hR3 hφ hacc)
        0x00000000#32 hR2 hφ hacc (ix2 r c)
      = ∑ h : Fin 32, ∑ w : Fin 512,
          if Cert.Spec.hit (B := 8) (C := 9) (H := 32) (W := 512) tb r c h w then (1 : EReal) else 0 := by
  refine (red_h _ _ _ _ r c).trans ?_
  refine Finset.sum_congr rfl (fun h _ => ?_)
  refine (red_w _ _ _ _ r c h).trans ?_
  refine Finset.sum_congr rfl (fun w _ => ?_)
  rw [select_apply, KPixel.pay8_apply, select_bit]
  unfold k0_pay12 k0_pay13
  rw [broadcast_apply, broadcast_apply]
  exact if_congr Iff.rfl one_word zero_word

section Pieces
variable {α : Type} (a b : S8x9.Idx → α) (c : S8x1.Idx → α)
  (hC : Shape.Concatenates [S8x9, S8x9, S8x1] S8x19 1) (r : Fin 8) (s : Fin 19)

/-- Columns 0 … 8 of the three blocks laid side by side are the first block's. -/
theorem cat_left (h1 : s.val < 9) :
    concatenate S8x19 1 [⟨S8x9, a⟩, ⟨S8x9, b⟩, ⟨S8x1, c⟩] hC (ix2 r s) = a (ix2 r (⟨s.val, h1⟩ : Fin 9)) :=
  concatenate_apply_piece (t := S8x19) 1 [⟨S8x9, a⟩, ⟨S8x9, b⟩, ⟨S8x1, c⟩] hC (ix2 r s) 0 (Nat.zero_lt_succ 2) S8x9 a rfl rfl 0 rfl
    (ix2 r (⟨s.val, h1⟩ : Fin 9))
    (fun d hd => match d, hd with
      | ⟨0, _⟩, _ => rfl
      | ⟨1, _⟩, hd => absurd rfl hd)
    (Nat.zero_add _)

/-- Columns 9 … 17 are the second block's. -/
theorem cat_mid (h1 : ¬ s.val < 9) (h2 : s.val - 9 < 9) :
    concatenate S8x19 1 [⟨S8x9, a⟩, ⟨S8x9, b⟩, ⟨S8x1, c⟩] hC (ix2 r s) = b (ix2 r (⟨s.val - 9, h2⟩ : Fin 9)) :=
  concatenate_apply_piece (t := S8x19) 1 [⟨S8x9, a⟩, ⟨S8x9, b⟩, ⟨S8x1, c⟩] hC (ix2 r s) 1 (Nat.succ_lt_succ (Nat.zero_lt_succ 1)) S8x9 b rfl rfl 9 rfl
    (ix2 r (⟨s.val - 9, h2⟩ : Fin 9))
    (fun d hd => match d, hd with
      | ⟨0, _⟩, _ => rfl
      | ⟨1, _⟩, hd => absurd rfl hd)
    (by show 9 + (s.val - 9) = s.val; omega)

/-- Column 18 is the last block's one column. -/
theorem cat_right (h18 : s.val = 18) :
    concatenate S8x19 1 [⟨S8x9, a⟩, ⟨S8x9, b⟩, ⟨S8x1, c⟩] hC (ix2 r s) = c (ix2 r (0 : Fin 1)) :=
  concatenate_apply_piece (t := S8x19) 1 [⟨S8x9, a⟩, ⟨S8x9, b⟩, ⟨S8x1, c⟩] hC (ix2 r s) 2 (Nat.succ_lt_succ (Nat.succ_lt_succ (Nat.zero_lt_succ 0))) S8x1 c rfl rfl 18 rfl
    (ix2 r (0 : Fin 1))
    (fun d hd => match d, hd with
      | ⟨0, _⟩, _ => rfl
      | ⟨1, _⟩, hd => absurd rfl hd)
    (by show 18 + 0 = s.val; omega)

end Pieces

/-! ## The three stored blocks -/

/-- The block the first point stores before accumulating is zero everywhere. -/
theorem pay3_apply (y : S8x19.Idx) : k0_pay3 (F := Ideal) y = (0 : EReal) := by
  unfold k0_pay3
  rw [shapeCast_self]
  exact Ideal.ofBits_zero_f32

/-- The block written to the output is the scratch with a unit leading axis. -/
theorem pay2_apply (v : Vec Ideal S8x19 .f32) (r : Fin 8) (s : Fin 19) :
    k0_pay2 (F := Ideal) v (ix3 (0 : Fin 1) r s) = v (ix2 r s) := by
  unfold k0_pay2
  exact shapeCast_ab_1ab_apply v _ 0 r s

/-- The accumulating store at an entry. -/
theorem pay1_apply (xb : Vec Ideal S8x9x32x512 .f32) (tb : Vec Ideal S8x32x512 .i32) (acc : Vec Ideal S8x19 .f32)
    (r : Fin 8) (s : Fin 19) :
    k0_pay1 (F := Ideal) (k0_pay8 (F := Ideal) tb) (k0_pay9 (F := Ideal) xb tb) (k0_pay10 (F := Ideal) xb tb)
        (k0_pay11 (F := Ideal) xb) (k0_pay12 (F := Ideal)) (k0_pay13 (F := Ideal)) acc (ix2 r s)
      = acc (ix2 r s) + Cert.Spec.statRow (B := 8) (C := 9) (H := 32) (W := 512) xb tb r s.val := by
  unfold k0_pay1
  rw [shapeCast_self, addf_apply]
  refine congrArg (fun a : EReal => acc (ix2 r s) + a) ?_
  unfold Cert.Spec.statRow
  by_cases h1 : s.val < 9
  · rw [dif_pos h1]
    exact (cat_left _ _ _ _ r s h1).trans (pay10_apply xb tb r ⟨s.val, h1⟩)
  · rw [dif_neg h1]
    by_cases h2 : s.val - 9 < 9
    · rw [dif_pos h2]
      refine (cat_mid _ _ _ _ r s h1 h2).trans ?_
      rw [addf_apply, pay11_apply]
      exact congrArg (fun a : EReal => _ + a) (count_apply tb _ _ _ _ r _)
    · rw [dif_neg h2]
      have hs : s.val = 18 := by have := s.isLt; omega
      refine (cat_right _ _ _ _ r s hs).trans ?_
      exact (cast_col _ _ r 0).trans (pay9_apply xb tb r)

end Cert.KStats

end
-- ==== Proof.KBlocks.lean ====
/-
  The blocks the pipeline hands the body: at grid point 16·g + j the scores' window holds rows 8g … 8g+7 and pixel
  rows 32j … 32j+31 of the scores, and the labels' window the same rows of the labels.
-/
import proofs.«421444_j54382875902255_3_alg».proof.Proof.Gen.KernelIdeal.Frame.Runs
import proofs.«421444_j54382875902255_3_alg».proof.Proof.Spec
import Idealize.ShloMosaic.Lib.Pipeline.Value

noncomputable section

open scoped BigOperators

namespace Cert.KBlocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The scores' window's block index at point t of the [2, 16] grid, row-major: (t / 16, 0, t % 16, 0). -/
theorem index0 : ∀ t : Fin grid0.N,
    win0_0.index t 0 = t.val / 16 ∧ win0_0.index t 1 = 0 ∧ win0_0.index t 2 = t.val % 16 ∧ win0_0.index t 3 = 0 := by
  decide +kernel

/-- The labels' window's block index at point t: (t / 16, t % 16, 0). -/
theorem index1 : ∀ t : Fin grid0.N,
    win0_1.index t 0 = t.val / 16 ∧ win0_1.index t 1 = t.val % 16 ∧ win0_1.index t 2 = 0 := by
  decide +kernel

/-- The scores' block at point 16·g + j. -/
theorem iblk0_eq (c : Dev nD) (t : Fin cfg0.N) (g : Fin 2) (j : Fin 16) (ht : t.val = 16 * g.val + j.val) :
    (iblk m c 0 t : S8x9x32x512.Idx → EReal) = Cert.Spec.xBlock (m ((c : Thread nD τ).loc main_arg0)) g j := by
  -- both sides read the scores at one index: block index times block extent plus the offset inside the block,
  -- and with t = 16·g + j the block index is (g, 0, j, 0)
  funext y
  unfold iblk Cert.Spec.xBlock
  rw [View.read_apply]
  show V m c main_arg0 _ = m (c.tc.loc main_arg0) _
  unfold V
  congr 1
  funext a
  apply Fin.ext
  obtain ⟨h0, h1, h2, h3⟩ := index0 t
  have hg := g.isLt
  have hj := j.isLt
  match a with
  | ⟨0, _⟩ => show win0_0.index t 0 * 8 + 1 * (y 0).val = 8 * g.val + (y 0).val; rw [h0]; omega
  | ⟨1, _⟩ => show win0_0.index t 1 * 9 + 1 * (y 1).val = (y 1).val; rw [h1]; omega
  | ⟨2, _⟩ => show win0_0.index t 2 * 32 + 1 * (y 2).val = 32 * j.val + (y 2).val; rw [h2]; omega
  | ⟨3, _⟩ => show win0_0.index t 3 * 512 + 1 * (y 3).val = (y 3).val; rw [h3]; omega

/-- The labels' block at point 16·g + j. -/
theorem iblk1_eq (c : Dev nD) (t : Fin cfg0.N) (g : Fin 2) (j : Fin 16) (ht : t.val = 16 * g.val + j.val) :
    (iblk m c 1 t : S8x32x512.Idx → BitVec 32) = Cert.Spec.tBlock (m ((c : Thread nD τ).loc main_arg1)) g j := by
  -- the same over three axes: the block index is (g, j, 0)
  funext y
  unfold iblk Cert.Spec.tBlock
  rw [View.read_apply]
  show V m c main_arg1 _ = m (c.tc.loc main_arg1) _
  unfold V
  congr 1
  funext a
  apply Fin.ext
  obtain ⟨h0, h1, h2⟩ := index1 t
  have hg := g.isLt
  have hj := j.isLt
  match a with
  | ⟨0, _⟩ => show win0_1.index t 0 * 8 + 1 * (y 0).val = 8 * g.val + (y 0).val; rw [h0]; omega
  | ⟨1, _⟩ => show win0_1.index t 1 * 32 + 1 * (y 1).val = 32 * j.val + (y 1).val; rw [h1]; omega
  | ⟨2, _⟩ => show win0_1.index t 2 * 512 + 1 * (y 2).val = (y 2).val; rw [h2]; omega

end Cert.KBlocks

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.SumBridge.lean ====
/-
  The statistics of the sixteen blocks of a row group add up to the statistics of the whole rows: each per-pixel
  quantity depends on its own pixel only, and the pixel rows 0 … 511 are the sixteen stretches 32j … 32j+31.
-/
import proofs.«421444_j54382875902255_3_alg».proof.Proof.Spec
import proofs.«421444_j54382875902255_3_alg».proof.Proof.LibBlockedSum

noncomputable section

open scoped BigOperators

namespace Cert.SumBridge

open Idealize.ShloMosaic Idealize.ShloMosaic.ValueIdx Cert.Spec

/-- Row `r` of row group `g`, as a row of the whole array: `8g + r`. -/
def bRow (g : Fin 2) (r : Fin 8) : Fin 16 :=
  ⟨8 * g.val + r.val, by have := g.isLt; have := r.isLt; omega⟩

/-- Pixel row `h` of block `j`, as a pixel row of the whole array: `32j + h`. -/
def pRow (j : Fin 16) (h : Fin 32) : Fin 512 :=
  ⟨32 * j.val + h.val, by have := j.isLt; have := h.isLt; omega⟩

variable (x : (⟨4, ![16, 9, 512, 512]⟩ : Shape).Idx → EReal) (t : (⟨3, ![16, 512, 512]⟩ : Shape).Idx → BitVec 32)
  (g : Fin 2) (j : Fin 16)

/-- A block's score at a pixel is the whole array's at the pixel's place in it. -/
theorem xBlock_apply (r : Fin 8) (c : Fin 9) (h : Fin 32) (w : Fin 512) :
    xBlock x g j (ix4 r c h w) = x (ix4 (bRow g r) c (pRow j h) w) := rfl

/-- A block's label at a pixel is the whole array's at the pixel's place in it. -/
theorem tBlock_apply (r : Fin 8) (h : Fin 32) (w : Fin 512) :
    tBlock t g j (ix3 r h w) = t (ix3 (bRow g r) (pRow j h) w) := rfl

/-- The largest score of a block's pixel is that of the pixel in the whole array. -/
theorem top_block (r : Fin 8) (h : Fin 32) (w : Fin 512) :
    top (xBlock x g j) r h w = top x (bRow g r) (pRow j h) w := rfl

/-- So is the shifted score, -/
theorem shifted_block (r : Fin 8) (c : Fin 9) (h : Fin 32) (w : Fin 512) :
    shifted (xBlock x g j) r c h w = shifted x (bRow g r) c (pRow j h) w := rfl

/-- its exponential, -/
theorem ex_block (r : Fin 8) (c : Fin 9) (h : Fin 32) (w : Fin 512) :
    ex (xBlock x g j) r c h w = ex x (bRow g r) c (pRow j h) w := rfl

/-- the sum of the exponentials, -/
theorem tot_block (r : Fin 8) (h : Fin 32) (w : Fin 512) :
    tot (xBlock x g j) r h w = tot x (bRow g r) (pRow j h) w := rfl

/-- the probability, -/
theorem prob_block (r : Fin 8) (c : Fin 9) (h : Fin 32) (w : Fin 512) :
    prob (xBlock x g j) r c h w = prob x (bRow g r) c (pRow j h) w := rfl

/-- the labelling, -/
theorem hit_block (r : Fin 8) (c : Fin 9) (h : Fin 32) (w : Fin 512) :
    hit (tBlock t g j) r c h w ↔ hit t (bRow g r) c (pRow j h) w := Iff.rfl

/-- the shifted score of the labelled class, -/
theorem picked_block (r : Fin 8) (h : Fin 32) (w : Fin 512) :
    picked (xBlock x g j) (tBlock t g j) r h w = picked x t (bRow g r) (pRow j h) w := by
  unfold picked
  refine Finset.sum_congr rfl fun c _ => ?_
  rw [shifted_block]
  exact if_congr (hit_block t g j r c h w) rfl rfl

/-- and the cross-entropy. -/
theorem ce_block (r : Fin 8) (h : Fin 32) (w : Fin 512) :
    ce (xBlock x g j) (tBlock t g j) r h w = ce x t (bRow g r) (pRow j h) w := by
  unfold ce
  rw [tot_block, picked_block]

/-- The pixel rows of the whole array are the sixteen blocks' pixel rows one after another. -/
theorem sum_pRow (F : Fin 512 → EReal) : ∑ j : Fin 16, ∑ h : Fin 32, F (pRow j h) = ∑ h : Fin 512, F h := by
  rw [Cert.LibBlockedSum.sum_blocks 16 32 rfl F]
  refine Finset.sum_congr rfl fun j _ => Finset.sum_congr rfl fun h _ => congrArg F (Fin.ext ?_)
  show 32 * j.val + h.val = j.val * 32 + h.val
  rw [Nat.mul_comm]

/-- The intersections of the blocks add up to the row's. -/
theorem inter_blocks (r : Fin 8) (c : Fin 9) :
    ∑ j : Fin 16, inter (xBlock x g j) (tBlock t g j) r c = inter x t (bRow g r) c := by
  unfold inter
  rw [← sum_pRow (fun h => ∑ w : Fin 512, if hit t (bRow g r) c h w then prob x (bRow g r) c h w else 0)]
  refine Finset.sum_congr rfl fun j _ => Finset.sum_congr rfl fun h _ => Finset.sum_congr rfl fun w _ => ?_
  rw [prob_block]
  exact if_congr (hit_block t g j r c h w) rfl rfl

/-- The cardinalities of the blocks add up to the row's. -/
theorem card_blocks (r : Fin 8) (c : Fin 9) :
    ∑ j : Fin 16, card (xBlock x g j) (tBlock t g j) r c = card x t (bRow g r) c := by
  unfold card
  rw [Finset.sum_add_distrib,
    ← sum_pRow (fun h => ∑ w : Fin 512, prob x (bRow g r) c h w),
    ← sum_pRow (fun h => ∑ w : Fin 512, if hit t (bRow g r) c h w then (1 : EReal) else 0)]
  -- both sides are now the same two triple sums, term by term (a block's pixel is the whole array's)
  rfl

/-- The cross-entropy sums of the blocks add up to the row's. -/
theorem ceRow_blocks (r : Fin 8) :
    ∑ j : Fin 16, ceRow (xBlock x g j) (tBlock t g j) r = ceRow x t (bRow g r) := by
  unfold ceRow
  rw [← sum_pRow (fun h => ∑ w : Fin 512, ce x t (bRow g r) h w)]
  refine Finset.sum_congr rfl fun j _ => Finset.sum_congr rfl fun h _ => Finset.sum_congr rfl fun w _ => ?_
  rw [ce_block]

/-- Column `s` of row `8g + r`: the sum over the sixteen blocks of the block's column `s` at its row `r`. -/
theorem statRow_blocks (x : (⟨4, ![16, 9, 512, 512]⟩ : Shape).Idx → EReal) (t : (⟨3, ![16, 512, 512]⟩ : Shape).Idx → BitVec 32)
    (g : Fin 2) (r : Fin 8) (s : Nat) :
    ∑ j : Fin 16, statRow (B := 8) (C := 9) (H := 32) (W := 512) (xBlock x g j) (tBlock t g j) r s
      = statRow (B := 16) (C := 9) (H := 512) (W := 512) x t
          ⟨8 * g.val + r.val, by have := g.isLt; have := r.isLt; omega⟩ s := by
  show _ = statRow x t (bRow g r) s
  unfold statRow
  by_cases h1 : s < 9
  · simp only [dif_pos h1]
    exact inter_blocks x t g r ⟨s, h1⟩
  · by_cases h2 : s - 9 < 9
    · simp only [dif_neg h1, dif_pos h2]
      exact card_blocks x t g r ⟨s - 9, h2⟩
    · simp only [dif_neg h1, dif_neg h2]
      exact ceRow_blocks x t g r

end Cert.SumBridge

end
-- ==== Proof.KPieces.lean ====
/-
  What one run of the kernel body leaves behind, case by case, as values: the carried statistics after the body are
  the accumulating store's payload over what they held before — over the zero block at the first pixel-row tile of a
  row group, where the body clears them first — and at the last tile the output block is those statistics with a
  unit leading axis.
-/
import proofs.«421444_j54382875902255_3_alg».proof.Proof.Gen.KernelIdeal.Frame
import proofs.«421444_j54382875902255_3_alg».proof.Proof.KStats
import proofs.«421444_j54382875902255_3_alg».proof.Proof.KBlocks
import proofs.«421444_j54382875902255_3_alg».proof.Proof.SumBridge
import Idealize.ShloMosaic.Lib.Pipeline.Value
import Idealize.ShloMosaic.Lib.Tactic

noncomputable section

open scoped BigOperators

namespace Cert.KPieces

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The statistics after the accumulating store: the payload of the scores' block `x0`, the labels' block `x1` and
    the statistics `acc` held before. -/
abbrev upd (x0 : Vec F S8x9x32x512 .f32) (x1 : Vec F S8x32x512 .i32) (acc : Vec F S8x19 .f32) : Vec F S8x19 .f32 :=
  k0_pay1 (k0_pay8 (F := F) x1) (k0_pay9 x0 x1) (k0_pay10 x0 x1) (k0_pay11 x0) (k0_pay12 (F := F)) (k0_pay13 (F := F)) acc

/-- A tile that is neither first nor last: the statistics are updated over what the tile before left. -/
theorem sout_B (c : Dev nD) (i : grid0.Coords) (arg2 : Memref sig .tc .vmem S8x9x32x512 .f32) (harg2 : arg2.IsWhole) (arg3 : Memref sig .tc .vmem S8x32x512 .i32) (harg3 : arg3.IsWhole) (arg4 : Memref sig .tc .vmem S1x8x19 .f32) (harg4 : arg4.IsWhole) (arg5 : Memref sig .tc .vmem S8x19 .f32) (harg5 : arg5.IsWhole) (hc0 : ¬cond0_0 i) (hc1 : ¬cond0_1 i)
    (x0 : Vec F S8x9x32x512 .f32) (x1 : Vec F S8x32x512 .i32) (xs0 : Vec F S8x19 .f32) :
    sout0_B_0 c i arg2 harg2 arg3 harg3 arg4 harg4 arg5 harg5 hc0 hc1 x0 x1 xs0 = upd x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S8x19) hz2,
    View.ld_unit_zero (S := S8x9x32x512) hz4, View.ld_unit_zero (S := S8x32x512) hz3, View.readCov_unit_zero (S := S8x19) _ hz2]

/-- The first tile: the statistics are cleared, then updated. -/
theorem sout_A (c : Dev nD) (i : grid0.Coords) (arg2 : Memref sig .tc .vmem S8x9x32x512 .f32) (harg2 : arg2.IsWhole) (arg3 : Memref sig .tc .vmem S8x32x512 .i32) (harg3 : arg3.IsWhole) (arg4 : Memref sig .tc .vmem S1x8x19 .f32) (harg4 : arg4.IsWhole) (arg5 : Memref sig .tc .vmem S8x19 .f32) (harg5 : arg5.IsWhole) (hc0 : cond0_0 i) (hc1 : ¬cond0_1 i)
    (x0 : Vec F S8x9x32x512 .f32) (x1 : Vec F S8x32x512 .i32) :
    sout0_A_0 c i arg2 harg2 arg3 harg3 arg4 harg4 arg5 harg5 hc0 hc1 x0 x1 = upd x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x19) hz2]
  simp only [View.readAt_eq_ld, harg2.read_unread, harg3.read_unread, harg5.read_unread, View.ld_unit_zero (S := S8x19) hz2,
    View.ld_unit_zero (S := S8x9x32x512) hz4, View.ld_unit_zero (S := S8x32x512) hz3, View.readCov_unit_zero (S := S8x19) _ hz2]

/-- The last tile: the statistics are updated as at any other, -/
theorem sout_C (c : Dev nD) (i : grid0.Coords) (arg2 : Memref sig .tc .vmem S8x9x32x512 .f32) (harg2 : arg2.IsWhole) (arg3 : Memref sig .tc .vmem S8x32x512 .i32) (harg3 : arg3.IsWhole) (arg4 : Memref sig .tc .vmem S1x8x19 .f32) (harg4 : arg4.IsWhole) (arg5 : Memref sig .tc .vmem S8x19 .f32) (harg5 : arg5.IsWhole) (hc0 : ¬cond0_0 i) (hc1 : cond0_1 i)
    (x0 : Vec F S8x9x32x512 .f32) (x1 : Vec F S8x32x512 .i32) (xs0 : Vec F S8x19 .f32) :
    sout0_C_0 c i arg2 harg2 arg3 harg3 arg4 harg4 arg5 harg5 hc0 hc1 x0 x1 xs0 = upd x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8x19) hz2,
    View.ld_unit_zero (S := S8x9x32x512) hz4, View.ld_unit_zero (S := S8x32x512) hz3, View.readCov_unit_zero (S := S8x19) _ hz2]

/-- and the output block is the updated statistics under a unit leading axis. -/
theorem out_C (c : Dev nD) (i : grid0.Coords) (arg2 : Memref sig .tc .vmem S8x9x32x512 .f32) (harg2 : arg2.IsWhole) (arg3 : Memref sig .tc .vmem S8x32x512 .i32) (harg3 : arg3.IsWhole) (arg4 : Memref sig .tc .vmem S1x8x19 .f32) (harg4 : arg4.IsWhole) (arg5 : Memref sig .tc .vmem S8x19 .f32) (harg5 : arg5.IsWhole) (hc0 : ¬cond0_0 i) (hc1 : cond0_1 i)
    (x0 : Vec F S8x9x32x512 .f32) (x1 : Vec F S8x32x512 .i32) (xs0 : Vec F S8x19 .f32) :
    out0_C_2 c i arg2 harg2 arg3 harg3 arg4 harg4 arg5 harg5 hc0 hc1 x0 x1 xs0 = k0_pay2 (F := F) (upd x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.ld_unit_zero (S := S8x19) hz2,
    View.ld_unit_zero (S := S8x9x32x512) hz4, View.ld_unit_zero (S := S8x32x512) hz3, View.readCov_unit_zero (S := S8x19) _ hz2]

end Cert.KPieces

/-! ## The statistics carried from tile to tile, and the output array -/

namespace Cert.KValue

open Idealize.ShloMosaic Idealize.ShloMosaic.TcCoe Idealize.ShloMosaic.ValueIdx Idealize.SL.Sem Cert.KernelIdeal Cert.KernelIdeal.Gen
open Cert.KPieces
open Idealize.ShloMosaic.Pipeline (Dat)

variable (m : (ℓ : Loc nD τ sig) → Buf (Elt Ideal) ℓ) (ρ : Dev nD → PrngReg)

/-- The two input blocks at a grid point, at their literal types. -/
abbrev xblk (c : Dev nD) (t : Fin cfg0.N) : Vec Ideal S8x9x32x512 .f32 := iblk m c 0 t
abbrev tblk (c : Dev nD) (t : Fin cfg0.N) : Vec Ideal S8x32x512 .i32 := iblk m c 1 t

/-- After the first tile of a row group the statistics are the update of the zero block. -/
theorem scr_first (c : Dev nD) (t : Fin cfg0.N) (h0 : t.val % 16 = 0) :
    (outsAt0 m c t.val t.isLt).2 = upd (xblk m c t) (tblk m c t) (k0_pay3 (F := Ideal)) := by
  have h1 : ¬t.val % 16 = 15 := by omega
  rw [outsAt0_A m c t h0 h1]
  dsimp only
  exact sout_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After any later tile they are the update of what the tile before left. -/
theorem scr_next (c : Dev nD) (t : Fin cfg0.N) (h0 : ¬t.val % 16 = 0) :
    (outsAt0 m c t.val t.isLt).2
      = upd (xblk m c t) (tblk m c t) (outsAt0 m c (t.val - 1) (Nat.lt_of_le_of_lt (Nat.sub_le _ _) t.isLt)).2 := by
  by_cases h1 : t.val % 16 = 15
  · rw [outsAt0_C m c t h0 h1]
    dsimp only
    exact sout_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At the last tile the output block is those statistics under a unit leading axis. -/
theorem out_last (c : Dev nD) (t : Fin cfg0.N) (h1 : t.val % 16 = 15) :
    (outsAt0 m c t.val t.isLt).1
      = k0_pay2 (F := Ideal) (upd (xblk m c t) (tblk m c t) (outsAt0 m c (t.val - 1) (Nat.lt_of_le_of_lt (Nat.sub_le _ _) t.isLt)).2) := by
  have h0 : ¬t.val % 16 = 0 := by omega
  rw [outsAt0_C m c t h0 h1]
  dsimp only
  exact out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The statistic of tile `j` of row group `g` at entry (r, s): the specification's per-row statistic of that block. -/
def tileStat (c : Dev nD) (g : Fin 2) (r : Fin 8) (s : Fin 19) (j : Fin 16) : EReal :=
  Cert.Spec.statRow (B := 8) (C := 9) (H := 32) (W := 512)
    (Cert.Spec.xBlock (m ((c : Thread nD τ).loc main_arg0)) g j) (Cert.Spec.tBlock (m ((c : Thread nD τ).loc main_arg1)) g j) r s.val

/-- Tile `k` of row group `g` is grid point `16g + k`. -/
theorem pt_lt (g : Fin 2) (k : ℕ) (hk : k < 16) : 16 * g.val + k < cfg0.N := by
  rw [show cfg0.N = 32 from N_0]; have := g.isLt; omega

/-- The contents after a point do not depend on how the point's number is written. -/
theorem outs_congr (c : Dev nD) (n n' : ℕ) (h : n < cfg0.N) (h' : n' < cfg0.N) (e : n = n') :
    outsAt0 m c n h = outsAt0 m c n' h' := by subst e; rfl

/-- One update, at tile `k` of row group `g`, adds that tile's statistic to every entry. -/
theorem upd_apply (c : Dev nD) (g : Fin 2) (k : ℕ) (hk : k < 16) (acc : Vec Ideal S8x19 .f32) (r : Fin 8) (s : Fin 19) :
    upd (xblk m c ⟨16 * g.val + k, pt_lt g k hk⟩) (tblk m c ⟨16 * g.val + k, pt_lt g k hk⟩) acc (ix2 r s)
      = acc (ix2 r s) + tileStat m c g r s ⟨k, hk⟩ := by
  refine (Cert.KStats.pay1_apply (xblk m c ⟨16 * g.val + k, pt_lt g k hk⟩) (tblk m c ⟨16 * g.val + k, pt_lt g k hk⟩) acc r s).trans ?_
  unfold tileStat
  have e0 : xblk m c ⟨16 * g.val + k, pt_lt g k hk⟩ = Cert.Spec.xBlock (m ((c : Thread nD τ).loc main_arg0)) g ⟨k, hk⟩ :=
    Cert.KBlocks.iblk0_eq m c ⟨16 * g.val + k, pt_lt g k hk⟩ g ⟨k, hk⟩ rfl
  have e1 : tblk m c ⟨16 * g.val + k, pt_lt g k hk⟩ = Cert.Spec.tBlock (m ((c : Thread nD τ).loc main_arg1)) g ⟨k, hk⟩ :=
    Cert.KBlocks.iblk1_eq m c ⟨16 * g.val + k, pt_lt g k hk⟩ g ⟨k, hk⟩ rfl
  rw [e0, e1]

/-- THE CARRIED STATISTICS: after tile `k` of row group `g`, entry (r, s) holds the sum of the statistics of the tiles
    `0 … k` — by induction on the tile, the first one starting from zero. -/
theorem scratch_eq (c : Dev nD) (g : Fin 2) (r : Fin 8) (s : Fin 19) : ∀ (k : ℕ) (hk : k < 16),
    (outsAt0 m c (16 * g.val + k) (pt_lt g k hk)).2 (ix2 r s) = Cert.LibBlockedSum.upto 16 (tileStat m c g r s) k
  | 0, hk => by
    have e := scr_first m c ⟨16 * g.val + 0, pt_lt g 0 hk⟩ (by show (16 * g.val + 0) % 16 = 0; omega)
    dsimp only at e
    refine (congrFun e (ix2 r s)).trans ?_
    rw [upd_apply m c g 0 hk, Cert.KStats.pay3_apply, zero_add, Cert.LibBlockedSum.upto_zero 16 _ (by decide)]
  | k + 1, hk => by
    have hk' : k < 16 := by omega
    have e := scr_next m c ⟨16 * g.val + (k + 1), pt_lt g (k + 1) hk⟩ (by show ¬(16 * g.val + (k + 1)) % 16 = 0; omega)
    dsimp only at e
    rw [outs_congr m c (16 * g.val + (k + 1) - 1) (16 * g.val + k) _ (pt_lt g k hk') (by omega)] at e
    refine (congrFun e (ix2 r s)).trans ?_
    rw [upd_apply m c g (k + 1) hk, scratch_eq c g r s k hk', Cert.LibBlockedSum.upto_succ 16 _ k hk]

/-- THE OUTPUT ARRAY the kernel leaves: entry (g, r, s) is column `s` of the statistics of row `8g + r` of the whole
    scores and labels. -/
def outArr (c : Dev nD) : Buf (Elt Ideal) ((c : Thread nD τ).loc main_v0) := fun (i : S2x8x19.Idx) =>
  Cert.Spec.statRow (B := 16) (C := 9) (H := 512) (W := 512) (m ((c : Thread nD τ).loc main_arg0)) (m ((c : Thread nD τ).loc main_arg1))
    ⟨8 * (i 0).val + (i 1).val, by
      have h0 : (i 0).val < 2 := (i 0).isLt
      have h1 : (i 1).val < 8 := (i 1).isLt
      omega⟩ (i 2).val

/-- The output window's block index at a point is the point's row group. -/
theorem idx_facts2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- The value a last tile stores, at entry (r, s): the statistics of row `8g + r` of the whole arrays — the carried
    statistics after tile 14 plus tile 15's are the sum over all sixteen tiles, which is the whole rows' statistic. -/
theorem last_tile_value (c : Dev nD) (g : Fin 2) (r : Fin 8) (s : Fin 19) :
    k0_pay2 (F := Ideal) (upd (xblk m c ⟨16 * g.val + 15, pt_lt g 15 (by decide)⟩) (tblk m c ⟨16 * g.val + 15, pt_lt g 15 (by decide)⟩)
        (outsAt0 m c (16 * g.val + 15 - 1) (Nat.lt_of_le_of_lt (Nat.sub_le _ _) (pt_lt g 15 (by decide)))).2) (ix3 (0 : Fin 1) r s)
      = Cert.Spec.statRow (B := 16) (C := 9) (H := 512) (W := 512) (m ((c : Thread nD τ).loc main_arg0)) (m ((c : Thread nD τ).loc main_arg1))
          ⟨8 * g.val + r.val, by have := g.isLt; have := r.isLt; omega⟩ s.val := by
  rw [Cert.KStats.pay2_apply, upd_apply m c g 15 (by decide),
    outs_congr m c (16 * g.val + 15 - 1) (16 * g.val + 14) _ (pt_lt g 14 (by decide)) (by omega),
    scratch_eq m c g r s 14 (by decide), ← Cert.LibBlockedSum.upto_succ 16 _ 14 (by decide),
    Cert.LibBlockedSum.upto_last 16 _ 15 (by decide)]
  exact Cert.SumBridge.statRow_blocks _ _ g r s.val

/-- WHAT A LAST TILE WRITES BACK is its row group's block of the output array. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  have hN : t.val < 32 := lt_of_lt_of_eq t.isLt N_0
  obtain ⟨g, rfl⟩ : ∃ g : Fin 2, t = ⟨16 * g.val + 15, pt_lt g 15 (by decide)⟩ :=
    ⟨⟨t.val / 16, by omega⟩, Fin.ext (by show t.val = 16 * (t.val / 16) + 15; omega)⟩
  obtain ⟨e0, e1, e2⟩ := idx_facts2 ⟨16 * g.val + 15, pt_lt g 15 (by decide)⟩
  have hg : (16 * g.val + 15) / 16 = g.val := by have := g.isLt; omega
  show (cfg0.win 2).cut (grid0.coords _) ((dats m 0 c).after 2 _) = _
  rw [after0_2, out_last m c _ h15]
  funext y
  have hy0 : (y 0).val < 1 := (y 0).isLt
  have hy1 : (y 1).val < 8 := (y 1).isLt
  have hy2 : (y 2).val < 19 := (y 2).isLt
  refine Eq.trans (b := k0_pay2 (F := Ideal) (upd (xblk m c ⟨16 * g.val + 15, pt_lt g 15 (by decide)⟩) (tblk m c ⟨16 * g.val + 15, pt_lt g 15 (by decide)⟩)
        (outsAt0 m c (16 * g.val + 15 - 1) (Nat.lt_of_le_of_lt (Nat.sub_le _ _) (pt_lt g 15 (by decide)))).2)
      (ix3 (0 : Fin 1) ⟨(y 1).val, hy1⟩ ⟨(y 2).val, hy2⟩)) ?_ ?_
  · refine congrArg _ (funext fun a => Fin.ext ?_)
    match a with
    | ⟨0, _⟩ => show (y 0).val = 0; omega
    | ⟨1, _⟩ => rfl
    | ⟨2, _⟩ => rfl
  · rw [last_tile_value m c g ⟨(y 1).val, hy1⟩ ⟨(y 2).val, hy2⟩, View.read_apply]
    unfold outArr
    simp only [cast_eq]
    have e0' : win0_2.index ⟨16 * g.val + 15, pt_lt g 15 (by decide)⟩ (0 : Fin 3) = g.val := e0.trans hg
    congr 1
    · apply Fin.ext
      show 8 * g.val + (y 1).val
        = 8 * (win0_2.index ⟨16 * g.val + 15, pt_lt g 15 (by decide)⟩ (0 : Fin 3) * 1 + 1 * (y 0).val)
          + (win0_2.index ⟨16 * g.val + 15, pt_lt g 15 (by decide)⟩ (1 : Fin 3) * 8 + 1 * (y 1).val)
      rw [e0', e1]; omega
    · show (y 2).val = win0_2.index ⟨16 * g.val + 15, pt_lt g 15 (by decide)⟩ (2 : Fin 3) * 19 + 1 * (y 2).val
      rw [e2]; omega

/-- An index of the output array is in point `t`'s block iff each coordinate is in the block's range on its axis. -/
theorem mem_blk (t : Fin cfg0.N) (i : S2x8x19.Idx) :
    i ∈ ((cfg0.win 2).blk t).view.set
      ↔ ∀ a : Fin 3, win0_2.index t a * S1x8x19.size a ≤ (i a).val ∧ (i a).val < win0_2.index t a * S1x8x19.size a + S1x8x19.size a := by
  show i ∈ ((View.whole main_v0).slice (win0_2.rect t)).set ↔ _
  rw [View.set_slice_whole, Rect.mem_set_unit]
  exact Iff.rfl

/-- THE ARRAY AFTER THE RUN: entry (g, r, s) lies in the block the last tile of row group `g` writes back, so the two
    write-backs fill the whole array. -/
theorem final_out (c : Dev nD) : (dats m 0 c).arrAt 2 cfg0.N = outArr m c :=
  (dats m 0 c).arrAt_eq_of_cover 2 (outArr m c) (fun t hf => flushed_eq m c t hf) fun i => by
    have h0 : ((i : S2x8x19.Idx) 0).val < 2 := ((i : S2x8x19.Idx) 0).isLt
    have h1 : ((i : S2x8x19.Idx) 1).val < 8 := ((i : S2x8x19.Idx) 1).isLt
    have h2 : ((i : S2x8x19.Idx) 2).val < 19 := ((i : S2x8x19.Idx) 2).isLt
    have hlt : 16 * ((i : S2x8x19.Idx) 0).val + 15 < cfg0.N := by rw [show cfg0.N = 32 from N_0]; omega
    refine ⟨⟨16 * ((i : S2x8x19.Idx) 0).val + 15, hlt⟩, (flush0_2 _).mpr (by show (16 * ((i : S2x8x19.Idx) 0).val + 15) % 16 = 15; omega), ?_⟩
    obtain ⟨e0, e1, e2⟩ := idx_facts2 ⟨16 * ((i : S2x8x19.Idx) 0).val + 15, hlt⟩
    have e0' : win0_2.index ⟨16 * ((i : S2x8x19.Idx) 0).val + 15, hlt⟩ (0 : Fin 3) = ((i : S2x8x19.Idx) 0).val :=
      e0.trans (by show (16 * ((i : S2x8x19.Idx) 0).val + 15) / 16 = _; omega)
    rw [mem_blk]
    intro a
    match a with
    | ⟨0, _⟩ =>
      show win0_2.index ⟨16 * ((i : S2x8x19.Idx) 0).val + 15, hlt⟩ (0 : Fin 3) * 1 ≤ ((i : S2x8x19.Idx) 0).val
        ∧ ((i : S2x8x19.Idx) 0).val < win0_2.index ⟨16 * ((i : S2x8x19.Idx) 0).val + 15, hlt⟩ (0 : Fin 3) * 1 + 1
      rw [e0']; omega
    | ⟨1, _⟩ =>
      show win0_2.index ⟨16 * ((i : S2x8x19.Idx) 0).val + 15, hlt⟩ (1 : Fin 3) * 8 ≤ ((i : S2x8x19.Idx) 1).val
        ∧ ((i : S2x8x19.Idx) 1).val < win0_2.index ⟨16 * ((i : S2x8x19.Idx) 0).val + 15, hlt⟩ (1 : Fin 3) * 8 + 8
      rw [e1]; omega
    | ⟨2, _⟩ =>
      show win0_2.index ⟨16 * ((i : S2x8x19.Idx) 0).val + 15, hlt⟩ (2 : Fin 3) * 19 ≤ ((i : S2x8x19.Idx) 2).val
        ∧ ((i : S2x8x19.Idx) 2).val < win0_2.index ⟨16 * ((i : S2x8x19.Idx) 0).val + 15, hlt⟩ (2 : Fin 3) * 19 + 19
      rw [e2]; omega

end Cert.KValue

end
-- ==== Proof.KTail.lean ====
/-
  The kernel's program after its one launch: the [2, 8, 19] output array is laid out as sixteen rows of nineteen
  statistics, its first nine columns are the intersections, the next nine the cardinalities, the last the rows'
  cross-entropy sums, which are added up; the closing arithmetic on these three gives the result. Read at an entry,
  the three are the specification's intersection, cardinality and total cross-entropy of the whole arrays.
-/
import proofs.«421444_j54382875902255_3_alg».proof.Proof.KPieces
import Idealize.ShloMosaic.Lib.StableHlo.Run

noncomputable section

open scoped BigOperators

namespace Cert.KTail

open Idealize.ShloMosaic Idealize.ShloMosaic.TcCoe Idealize.ShloMosaic.ValueIdx Idealize.SL.Sem Cert.KernelIdeal Cert.KernelIdeal.Gen
open Cert.KValue

variable (m : (ℓ : Loc nD τ sig) → Buf (Elt Ideal) ℓ) (ρ : Dev nD → PrngReg)

/-- The output array as sixteen rows of nineteen statistics. -/
def rowsK (c : Dev nD) : FVec Ideal S16x19 .f32 := shapeCast S16x19 (outArr m c) shapeCasts_S2x8x19_S16x19
/-- Its first nine columns. -/
def interK (c : Dev nD) : FVec Ideal S16x9 .f32 := extractStridedSlice S16x9 ![0, 0] (rowsK m c) slices_S16x19_S16x9_0_0
/-- Its next nine columns. -/
def cardK (c : Dev nD) : FVec Ideal S16x9 .f32 := extractStridedSlice S16x9 ![0, 9] (rowsK m c) slices_S16x19_S16x9_0_9
/-- Its last column, added up over the rows. -/
def ceK (c : Dev nD) : FVec Ideal S_ .f32 :=
  Host.reduceAdd (shapeCast S16 (extractStridedSlice S16x1 ![0, 18] (rowsK m c) slices_S16x19_S16x1_0_18) shapeCasts_S16x1_S16)
    (constant S_ .f32 0x00000000#32) reducesTo_S16_S_d0 h_S_

/-- THE KERNEL'S RUN, read: the result is the closing arithmetic of those three; the arguments are unchanged. -/
theorem kernel_run : θ_run defs (onTc (τ := τ) (main (F := Ideal))) ⟨m, fun _ => 0, ρ⟩ fun r => ∀ c : Dev nD,
      r.2.mem ((c.tc : Thread nD τ).loc main_v21)
        = Cert.Spec.tailOf (F := Ideal) bcast_S_S16x9 reducesTo_S16x9_S_d0_1 h_S_ (interK m c) (cardK m c) (ceK m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · -- the result buffer is none of the launch's arrays: it holds what the operations after the launch leave in it
    have hmem : main_v21 ∈ Pipeline.restRefs sig (cfgs 0).spec := by decide
    refine ((h c).2 main_v21 hmem).trans ?_
    unfold Pipeline.afterTail₀
    simp only [hostOps1, hostOps1_1, hostOps1_2, List.flatten_cons, List.flatten_nil, List.append_nil, List.cons_append, List.nil_append]
    after_results_simp
    simp only [StableHlo.TRef.ofBuf, StableHlo.TRef.toBuf, cast_eq, id]
    -- the output array after the launch is the array of the rows' statistics
    rw [show Pipeline.withArrays (cfgs 0).spec c (V0 m c) (fun w => (dats m 0 c).arrAt w (cfgs 0).N) (Proc.devRef .tc main_v0)
        = outArr m c from (Pipeline.withArrays_arr spec0 launch0.win.arr_inj c _ _ 2).trans (final_out m c)]
    unfold Cert.Spec.tailOf interK cardK ceK rowsK
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row `b`, column `s` of the sixteen rows: the reshape reads the output array at (b / 8, b % 8, s), the same
    row-major position, which holds statistic `s` of row 8 (b / 8) + b % 8 = b. -/
theorem rowsK_apply (c : Dev nD) (b : Fin 16) (s : Fin 19) :
    rowsK m c (ix2 b s) = Cert.Spec.statRow (B := 16) (C := 9) (H := 512) (W := 512)
      (m ((c : Thread nD τ).loc main_arg0)) (m ((c : Thread nD τ).loc main_arg1)) b s.val := by
  have hb := b.isLt
  unfold rowsK
  refine (shapeCast_apply (s := S2x8x19) (t := S16x19) (outArr m c) shapeCasts_S2x8x19_S16x19 (ix2 b s)
    (ix3 (⟨b.val / 8, by omega⟩ : Fin 2) (⟨b.val % 8, by omega⟩ : Fin 8) s) ?_).trans ?_
  · rw [Shape.rowMajor_val_three, Shape.rowMajor_val_two]
    show (b.val / 8 * 8 + b.val % 8) * 19 + s.val = b.val * 19 + s.val
    omega
  · unfold outArr
    refine congrArg (fun b' => Cert.Spec.statRow (B := 16) (C := 9) (H := 512) (W := 512)
      (m ((c : Thread nD τ).loc main_arg0)) (m ((c : Thread nD τ).loc main_arg1)) b' s.val) (Fin.ext ?_)
    show 8 * (b.val / 8) + b.val % 8 = b.val
    omega

/-- The intersections. -/
theorem interK_apply (c : Dev nD) (b : Fin 16) (k : Fin 9) :
    interK m c (ix2 b k) = Cert.Spec.inter (B := 16) (C := 9) (H := 512) (W := 512)
      (m ((c : Thread nD τ).loc main_arg0)) (m ((c : Thread nD τ).loc main_arg1)) b k := by
  -- the slice at column offset 0 reads column k, which is below 9: an intersection
  unfold interK extractStridedSlice
  refine (congrArg (rowsK m c) (?_ : _ = ix2 b (⟨k.val, by have := k.isLt; omega⟩ : Fin 19))).trans ((rowsK_apply m c b _).trans ?_)
  · funext a
    apply Fin.ext
    match a with
    | ⟨0, _⟩ => show 0 + b.val = b.val; omega
    | ⟨1, _⟩ => show 0 + k.val = k.val; omega
  · unfold Cert.Spec.statRow
    rw [dif_pos k.isLt]

/-- The cardinalities. -/
theorem cardK_apply (c : Dev nD) (b : Fin 16) (k : Fin 9) :
    cardK m c (ix2 b k) = Cert.Spec.card (B := 16) (C := 9) (H := 512) (W := 512)
      (m ((c : Thread nD τ).loc main_arg0)) (m ((c : Thread nD τ).loc main_arg1)) b k := by
  -- the slice at column offset 9 reads column 9 + k, in [9, 18): a cardinality
  unfold cardK extractStridedSlice
  refine (congrArg (rowsK m c) (?_ : _ = ix2 b (⟨9 + k.val, by have := k.isLt; omega⟩ : Fin 19))).trans ((rowsK_apply m c b _).trans ?_)
  · funext a
    apply Fin.ext
    match a with
    | ⟨0, _⟩ => show 0 + b.val = b.val; omega
    | ⟨1, _⟩ => rfl
  · unfold Cert.Spec.statRow
    have hk := k.isLt
    rw [dif_neg (by show ¬ 9 + k.val < 9; omega), dif_pos (by show 9 + k.val - 9 < 9; omega)]
    exact congrArg (Cert.Spec.card _ _ b) (Fin.ext (by show 9 + k.val - 9 = k.val; omega))

/-- The total cross-entropy. -/
theorem ceK_apply (c : Dev nD) :
    ceK m c ix0 = ∑ b : Fin 16, Cert.Spec.ceRow (B := 16) (C := 9) (H := 512) (W := 512)
      (m ((c : Thread nD τ).loc main_arg0)) (m ((c : Thread nD τ).loc main_arg1)) b := by
  -- a sum over every axis from the zero word: zero plus the sum over the rows of column 18
  unfold ceK
  show Ideal.hostReduceAdd reducesTo_S16_S_d0 _ (Ideal.ofBits .f32 0x00000000#32) ix0 = _
  rw [Ideal.hostReduceAdd_total reducesTo_S16_S_d0 (fun b => b.elim0), Ideal.ofBits_zero_f32, zero_add, sum_idx1]
  refine Finset.sum_congr rfl fun b _ => ?_
  -- the reshape [16, 1] → [16] reads (b, 0); the slice at column offset 18 reads column 18: the row's cross-entropy
  refine (shapeCast_apply (s := S16x1) (t := S16) _ shapeCasts_S16x1_S16 (ix1 b) (ix2 b (0 : Fin 1)) ?_).trans ?_
  · rw [Shape.rowMajor_val_two, Shape.rowMajor_val_one]
    show b.val * 1 + 0 = b.val
    omega
  · unfold extractStridedSlice
    refine (congrArg (rowsK m c) (?_ : _ = ix2 b (⟨18, by decide⟩ : Fin 19))).trans ((rowsK_apply m c b _).trans ?_)
    · funext a
      apply Fin.ext
      match a with
      | ⟨0, _⟩ => show 0 + b.val = b.val; omega
      | ⟨1, _⟩ => rfl
    · unfold Cert.Spec.statRow
      rw [dif_neg (by decide), dif_neg (by decide)]

end Cert.KTail

end
-- ==== Proof.RefStages.lean ====
/-
  What the reference's buffers hold after its 97 operations, read stage by stage: the result buffer holds the last
  stage's value of the two arguments, and the arguments are not written. The run follows.
-/
import proofs.«421444_j54382875902255_3_alg».proof.Proof.RefRun
import proofs.«421444_j54382875902255_3_alg».proof.Proof.RefRead

noncomputable section

open scoped BigOperators

namespace Cert.RefStages

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-! ## The tools

The program's seven lists are read one at a time, each from ANY contents `W` of the buffers: the buffer a list ends
on holds its stage function of what `W` holds at the buffers the list starts from, and a buffer the list does not
write keeps what `W` holds. The fold over the whole program is the seven folds one after the other.

An operation of a called function moves contents between the type its value has and its buffer's own type; the two
are the same type, so the moves are the identity: a move there and back always, a single move at a named buffer. -/

/-- Contents moved to a buffer's own type and back are the contents. -/
theorem ofBuf_toBuf {sg : RefSig} {Val : EltTy → Type} {T : BufTy} (x : TRef sg T) (v : T.Contents Val) :
    x.ofBuf (x.toBuf v) = v := by
  obtain ⟨r, h, h1, h2⟩ := x
  subst h
  rfl

theorem ofBuf_arg0 (h1 : _) (h2 : _) (h3 : _) (v : (main_arg0 : Ref sig .tc).ty.Contents (Elt F)) :
    (TRef.of (T := ⟨S16x9x512x512, .f32⟩) main_arg0 h1 h2 h3).ofBuf v = v := rfl
theorem ofBuf_arg1 (h1 : _) (h2 : _) (h3 : _) (v : (main_arg1 : Ref sig .tc).ty.Contents (Elt F)) :
    (TRef.of (T := ⟨S16x512x512, .i32⟩) main_arg1 h1 h2 h3).ofBuf v = v := rfl
theorem ofBuf_v0 (h1 : _) (h2 : _) (h3 : _) (v : (main_v0 : Ref sig .tc).ty.Contents (Elt F)) :
    (TRef.of (T := ⟨S16x9x512x512, .f32⟩) main_v0 h1 h2 h3).ofBuf v = v := rfl
theorem ofBuf_v1 (h1 : _) (h2 : _) (h3 : _) (v : (main_v1 : Ref sig .tc).ty.Contents (Elt F)) :
    (TRef.of (T := ⟨S16x1x512x512, .i32⟩) main_v1 h1 h2 h3).ofBuf v = v := rfl
theorem ofBuf_call1_v5 (h1 : _) (h2 : _) (h3 : _) (v : (main_call1_v5 : Ref sig .tc).ty.Contents (Elt F)) :
    (TRef.of (T := ⟨S16x1x512x512x1, .i32⟩) main_call1_v5 h1 h2 h3).ofBuf v = v := rfl
theorem ofBuf_cst_10 (h1 : _) (h2 : _) (h3 : _) (v : (main_cst_10 : Ref sig .tc).ty.Contents (Elt F)) :
    (TRef.of (T := ⟨S_, .f32⟩) main_cst_10 h1 h2 h3).ofBuf v = v := rfl
theorem ofBuf_v25 (h1 : _) (h2 : _) (h3 : _) (v : (main_v25 : Ref sig .tc).ty.Contents (Elt F)) :
    (TRef.of (T := ⟨S16x9, .i1⟩) main_v25 h1 h2 h3).ofBuf v = v := rfl
theorem ofBuf_v30 (h1 : _) (h2 : _) (h3 : _) (v : (main_v30 : Ref sig .tc).ty.Contents (Elt F)) :
    (TRef.of (T := ⟨S16x9, .f32⟩) main_v30 h1 h2 h3).ofBuf v = v := rfl
theorem toBuf_v0 (h1 : _) (h2 : _) (h3 : _) (v : (⟨S16x9x512x512, .f32⟩ : BufTy).Contents (Elt F)) :
    (TRef.of (T := ⟨S16x9x512x512, .f32⟩) main_v0 h1 h2 h3).toBuf v = v := rfl
theorem toBuf_call1_v4 (h1 : _) (h2 : _) (h3 : _) (v : (⟨S16x1x512x512, .i32⟩ : BufTy).Contents (Elt F)) :
    (TRef.of (T := ⟨S16x1x512x512, .i32⟩) main_call1_v4 h1 h2 h3).toBuf v = v := rfl
theorem toBuf_v2 (h1 : _) (h2 : _) (h3 : _) (v : (⟨S16x1x512x512, .f32⟩ : BufTy).Contents (Elt F)) :
    (TRef.of (T := ⟨S16x1x512x512, .f32⟩) main_v2 h1 h2 h3).toBuf v = v := rfl
theorem toBuf_v18 (h1 : _) (h2 : _) (h3 : _) (v : (⟨S16x9x512x512, .f32⟩ : BufTy).Contents (Elt F)) :
    (TRef.of (T := ⟨S16x9x512x512, .f32⟩) main_v18 h1 h2 h3).toBuf v = v := rfl
theorem toBuf_v31 (h1 : _) (h2 : _) (h3 : _) (v : (⟨S16x9, .f32⟩ : BufTy).Contents (Elt F)) :
    (TRef.of (T := ⟨S16x9, .f32⟩) main_v31 h1 h2 h3).toBuf v = v := rfl

/-- The fold over the program is the folds over its seven lists, in order. -/
theorem ops_split (V : Valuation τ sig (Elt F)) :
    after (ops (F := F)) V
      = after ops7 (after ops6 (after ops5 (after ops4 (after ops3 (after ops2 (after ops1 V)))))) := by
  show after (ops1 ++ ops2 ++ ops3 ++ ops4 ++ ops5 ++ ops6 ++ ops7) V = _
  rw [after_append, after_append, after_append, after_append, after_append, after_append]

/-! ## The first list: the logarithm of the softmax -/

/-- The first list leaves the logarithm of the softmax of the scores. -/
theorem ops1_v0 (W : Valuation τ sig (Elt F)) :
    after (ops1 (F := F)) W (Proc.devRef .tc main_v0)
      = Cert.ReferenceIdeal.ReadP.val_main_v0 (F := F) (W (Proc.devRef .tc main_arg0)) := by
  after_results_simp
  simp only [ofBuf_toBuf, ofBuf_arg0, toBuf_v0]
  rfl

/-- It writes neither argument. -/
theorem ops1_frame (W : Valuation τ sig (Elt F)) :
    after (ops1 (F := F)) W (Proc.devRef .tc main_arg0) = W (Proc.devRef .tc main_arg0)
      ∧ after (ops1 (F := F)) W (Proc.devRef .tc main_arg1) = W (Proc.devRef .tc main_arg1) := by
  refine ⟨?_, ?_⟩ <;> after_results_simp

/-! ## The second list: the pick along the class axis -/

/-- The second list leaves the picked values, from the logarithm of the softmax and the labels. -/
theorem ops2_v2 (W : Valuation τ sig (Elt F)) (x0 : (⟨S16x9x512x512, .f32⟩ : BufTy).Contents (Elt F))
    (x1 : (⟨S16x512x512, .i32⟩ : BufTy).Contents (Elt F))
    (h0 : W (Proc.devRef .tc main_v0) = Cert.ReferenceIdeal.ReadP.val_main_v0 (F := F) x0)
    (h1 : W (Proc.devRef .tc main_arg1) = x1) :
    after (ops2 (F := F)) W (Proc.devRef .tc main_v2) = Cert.ReferenceIdeal.ReadP.val_main_v2 (F := F) x0 x1 := by
  after_results_simp
  simp only [ofBuf_toBuf, ofBuf_v0, ofBuf_v1, ofBuf_call1_v5, toBuf_call1_v4, toBuf_v2]
  rw [h0, h1]
  rfl

/-- It writes neither argument. -/
theorem ops2_frame (W : Valuation τ sig (Elt F)) :
    after (ops2 (F := F)) W (Proc.devRef .tc main_arg0) = W (Proc.devRef .tc main_arg0)
      ∧ after (ops2 (F := F)) W (Proc.devRef .tc main_arg1) = W (Proc.devRef .tc main_arg1) := by
  refine ⟨?_, ?_⟩ <;> after_results_simp

/-! ## The third list: the mean cross-entropy -/

/-- The third list leaves the mean cross-entropy, from the picked values. -/
theorem ops3_v6 (W : Valuation τ sig (Elt F)) (x0 : (⟨S16x9x512x512, .f32⟩ : BufTy).Contents (Elt F))
    (x1 : (⟨S16x512x512, .i32⟩ : BufTy).Contents (Elt F))
    (h2 : W (Proc.devRef .tc main_v2) = Cert.ReferenceIdeal.ReadP.val_main_v2 (F := F) x0 x1) :
    after (ops3 (F := F)) W (Proc.devRef .tc main_v6) = Cert.ReferenceIdeal.ReadP.val_main_v6 (F := F) x0 x1 := by
  after_results_simp
  rw [h2]
  rfl

/-- It writes neither argument. -/
theorem ops3_frame (W : Valuation τ sig (Elt F)) :
    after (ops3 (F := F)) W (Proc.devRef .tc main_arg0) = W (Proc.devRef .tc main_arg0)
      ∧ after (ops3 (F := F)) W (Proc.devRef .tc main_arg1) = W (Proc.devRef .tc main_arg1) := by
  refine ⟨?_, ?_⟩ <;> after_results_simp

/-! ## The fourth list: the softmax -/

/-- The fourth list leaves the softmax of the scores. -/
theorem ops4_v17 (W : Valuation τ sig (Elt F)) :
    after (ops4 (F := F)) W (Proc.devRef .tc main_v17)
      = Cert.ReferenceIdeal.ReadP.val_main_v17 (F := F) (W (Proc.devRef .tc main_arg0)) := by
  after_results_simp
  rfl

/-- It writes neither argument, nor the mean cross-entropy. -/
theorem ops4_frame (W : Valuation τ sig (Elt F)) :
    after (ops4 (F := F)) W (Proc.devRef .tc main_arg0) = W (Proc.devRef .tc main_arg0)
      ∧ after (ops4 (F := F)) W (Proc.devRef .tc main_arg1) = W (Proc.devRef .tc main_arg1)
      ∧ after (ops4 (F := F)) W (Proc.devRef .tc main_v6) = W (Proc.devRef .tc main_v6) := by
  refine ⟨?_, ?_, ?_⟩ <;> after_results_simp

/-! ## The fifth list: the one-hot labels -/

/-- The fifth list leaves the one-hot labels. -/
theorem ops5_v18 (W : Valuation τ sig (Elt F)) :
    after (ops5 (F := F)) W (Proc.devRef .tc main_v18)
      = Cert.ReferenceIdeal.ReadP.val_main_v18 (F := F) (W (Proc.devRef .tc main_arg1)) := by
  after_results_simp
  simp only [ofBuf_toBuf, ofBuf_arg1, toBuf_v18]
  rfl

/-- It writes neither argument, nor the mean cross-entropy, nor the softmax. -/
theorem ops5_frame (W : Valuation τ sig (Elt F)) :
    after (ops5 (F := F)) W (Proc.devRef .tc main_arg0) = W (Proc.devRef .tc main_arg0)
      ∧ after (ops5 (F := F)) W (Proc.devRef .tc main_arg1) = W (Proc.devRef .tc main_arg1)
      ∧ after (ops5 (F := F)) W (Proc.devRef .tc main_v6) = W (Proc.devRef .tc main_v6)
      ∧ after (ops5 (F := F)) W (Proc.devRef .tc main_v17) = W (Proc.devRef .tc main_v17) := by
  refine ⟨?_, ?_, ?_, ?_⟩ <;> after_results_simp

/-! ## The sixth list: the sums over the pixels -/

/-- The sixth list leaves the intersections, from the softmax and the one-hot labels, -/
theorem ops6_v20 (W : Valuation τ sig (Elt F)) (x0 : (⟨S16x9x512x512, .f32⟩ : BufTy).Contents (Elt F))
    (x1 : (⟨S16x512x512, .i32⟩ : BufTy).Contents (Elt F))
    (h17 : W (Proc.devRef .tc main_v17) = Cert.ReferenceIdeal.ReadP.val_main_v17 (F := F) x0)
    (h18 : W (Proc.devRef .tc main_v18) = Cert.ReferenceIdeal.ReadP.val_main_v18 (F := F) x1) :
    after (ops6 (F := F)) W (Proc.devRef .tc main_v20) = Cert.ReferenceIdeal.ReadP.val_main_v20 (F := F) x0 x1 := by
  after_results_simp
  rw [h17, h18]
  rfl

/-- and the cardinalities. -/
theorem ops6_v23 (W : Valuation τ sig (Elt F)) (x0 : (⟨S16x9x512x512, .f32⟩ : BufTy).Contents (Elt F))
    (x1 : (⟨S16x512x512, .i32⟩ : BufTy).Contents (Elt F))
    (h17 : W (Proc.devRef .tc main_v17) = Cert.ReferenceIdeal.ReadP.val_main_v17 (F := F) x0)
    (h18 : W (Proc.devRef .tc main_v18) = Cert.ReferenceIdeal.ReadP.val_main_v18 (F := F) x1) :
    after (ops6 (F := F)) W (Proc.devRef .tc main_v23) = Cert.ReferenceIdeal.ReadP.val_main_v23 (F := F) x0 x1 := by
  after_results_simp
  rw [h17, h18]
  rfl

/-- It writes neither argument, nor the mean cross-entropy. -/
theorem ops6_frame (W : Valuation τ sig (Elt F)) :
    after (ops6 (F := F)) W (Proc.devRef .tc main_arg0) = W (Proc.devRef .tc main_arg0)
      ∧ after (ops6 (F := F)) W (Proc.devRef .tc main_arg1) = W (Proc.devRef .tc main_arg1)
      ∧ after (ops6 (F := F)) W (Proc.devRef .tc main_v6) = W (Proc.devRef .tc main_v6) := by
  refine ⟨?_, ?_, ?_⟩ <;> after_results_simp

/-! ## The seventh list: the closing arithmetic -/

/-- The seventh list leaves the weighted loss, from the intersections, the cardinalities and the mean cross-entropy. -/
theorem ops7_v37 (W : Valuation τ sig (Elt F)) (x0 : (⟨S16x9x512x512, .f32⟩ : BufTy).Contents (Elt F))
    (x1 : (⟨S16x512x512, .i32⟩ : BufTy).Contents (Elt F))
    (h20 : W (Proc.devRef .tc main_v20) = Cert.ReferenceIdeal.ReadP.val_main_v20 (F := F) x0 x1)
    (h23 : W (Proc.devRef .tc main_v23) = Cert.ReferenceIdeal.ReadP.val_main_v23 (F := F) x0 x1)
    (h6 : W (Proc.devRef .tc main_v6) = Cert.ReferenceIdeal.ReadP.val_main_v6 (F := F) x0 x1) :
    after (ops7 (F := F)) W (Proc.devRef .tc main_v37) = Cert.ReferenceIdeal.ReadP.val_main_v37 (F := F) x0 x1 := by
  after_results_simp
  simp only [ofBuf_toBuf, ofBuf_cst_10, ofBuf_v25, ofBuf_v30, toBuf_v31]
  rw [h20, h23, h6]
  rfl

/-- It writes neither argument. -/
theorem ops7_frame (W : Valuation τ sig (Elt F)) :
    after (ops7 (F := F)) W (Proc.devRef .tc main_arg0) = W (Proc.devRef .tc main_arg0)
      ∧ after (ops7 (F := F)) W (Proc.devRef .tc main_arg1) = W (Proc.devRef .tc main_arg1) := by
  refine ⟨?_, ?_⟩ <;> after_results_simp

/-! ## The whole program -/

/-- The result buffer after the fold: the last stage of the arguments. -/
theorem after_result (V : Valuation τ sig (Elt F)) :
    after (ops (F := F)) V (Proc.devRef .tc main_v37)
      = Cert.ReferenceIdeal.ReadP.val_main_v37 (F := F) (V (Proc.devRef .tc main_arg0)) (V (Proc.devRef .tc main_arg1)) := by
  rw [ops_split]
  -- after the first list: the logarithm of the softmax, the arguments as at the start
  have a1 := (ops1_frame V).1
  have b1 := (ops1_frame V).2
  have c1 := ops1_v0 V
  -- after the second: the picked values
  have a2 := (ops2_frame (after ops1 V)).1.trans a1
  have b2 := (ops2_frame (after ops1 V)).2.trans b1
  have c2 := ops2_v2 (after ops1 V) _ _ c1 b1
  -- after the third: the mean cross-entropy
  have a3 := (ops3_frame (after ops2 (after ops1 V))).1.trans a2
  have b3 := (ops3_frame (after ops2 (after ops1 V))).2.trans b2
  have c3 := ops3_v6 (after ops2 (after ops1 V)) _ _ c2
  -- after the fourth: the softmax beside it
  have b4 := (ops4_frame (after ops3 (after ops2 (after ops1 V)))).2.1.trans b3
  have c4 := (ops4_frame (after ops3 (after ops2 (after ops1 V)))).2.2.trans c3
  have d4 := ops4_v17 (after ops3 (after ops2 (after ops1 V)))
  rw [a3] at d4
  -- after the fifth: the one-hot labels beside them
  have c5 := (ops5_frame (after ops4 (after ops3 (after ops2 (after ops1 V))))).2.2.1.trans c4
  have d5 := (ops5_frame (after ops4 (after ops3 (after ops2 (after ops1 V))))).2.2.2.trans d4
  have e5 := ops5_v18 (after ops4 (after ops3 (after ops2 (after ops1 V))))
  rw [b4] at e5
  -- after the sixth: the intersections and the cardinalities
  have c6 := (ops6_frame (after ops5 (after ops4 (after ops3 (after ops2 (after ops1 V)))))).2.2.trans c5
  have f6 := ops6_v20 (after ops5 (after ops4 (after ops3 (after ops2 (after ops1 V))))) _ _ d5 e5
  have g6 := ops6_v23 (after ops5 (after ops4 (after ops3 (after ops2 (after ops1 V))))) _ _ d5 e5
  -- the seventh list closes
  exact ops7_v37 _ _ _ f6 g6 c6

/-- No operation writes the scores. -/
theorem after_arg0 (V : Valuation τ sig (Elt F)) :
    after (ops (F := F)) V (Proc.devRef .tc main_arg0) = V (Proc.devRef .tc main_arg0) := by
  rw [ops_split, (ops7_frame _).1, (ops6_frame _).1, (ops5_frame _).1, (ops4_frame _).1, (ops3_frame _).1,
    (ops2_frame _).1, (ops1_frame _).1]

/-- No operation writes the labels. -/
theorem after_arg1 (V : Valuation τ sig (Elt F)) :
    after (ops (F := F)) V (Proc.devRef .tc main_arg1) = V (Proc.devRef .tc main_arg1) := by
  rw [ops_split, (ops7_frame _).2, (ops6_frame _).2.1, (ops5_frame _).2.1, (ops4_frame _).2.1, (ops3_frame _).2,
    (ops2_frame _).2, (ops1_frame _).2]

/-- THE RUN: every weakly fair execution terminates with the result at the last stage of the arguments' launch
    contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = Cert.ReferenceIdeal.ReadP.val_main_v37 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (after_result _), (h c main_arg0).trans (after_arg0 _),
    (h c main_arg1).trans (after_arg1 _)⟩) (run_fold m ρ)

end Cert.RefStages

end
-- ==== Proof.RefTail.lean ====
/-
  The reference's last stage is the closing arithmetic of three earlier stages: the intersections, the cardinalities and
  the total cross-entropy.
-/
import proofs.«421444_j54382875902255_3_alg».proof.Proof.RefRead
import proofs.«421444_j54382875902255_3_alg».proof.Proof.Spec

noncomputable section

open scoped BigOperators

namespace Cert.RefTail

open Idealize.ShloMosaic Cert.ReferenceIdeal Cert.ReferenceIdeal.Gen

variable {F : FTy → Type} [FloatOps F]

theorem tail_eq (x : (⟨S16x9x512x512, .f32⟩ : BufTy).Contents (Elt F)) (t : (⟨S16x512x512, .i32⟩ : BufTy).Contents (Elt F)) :
    Cert.ReferenceIdeal.ReadP.val_main_v37 (F := F) x t
      = Cert.Spec.tailOf (F := F) bcast_S_S16x9 reducesTo_S16x9_S_d0_1 h_S_
          (Cert.ReferenceIdeal.ReadP.val_main_v20 (F := F) x t) (Cert.ReferenceIdeal.ReadP.val_main_v23 (F := F) x t)
          (Cert.ReferenceIdeal.ReadP.val_main_v5 (F := F) x t) := by
  unfold ReadP.val_main_v37 ReadP.val_main_v35 ReadP.val_main_v36 ReadP.val_main_v6 ReadP.val_main_v34 ReadP.val_main_v33 ReadP.val_main_v32 ReadP.val_main_v31 ReadP.val_main_v25
    ReadP.val_main_v24 ReadP.val_main_v30 ReadP.val_main_v27 ReadP.val_main_v26 ReadP.val_main_v29 ReadP.val_main_v28 ReadP.val_main_call3_v1 ReadP.val_main_call3_v0 ReadP.val_main_cst_0
    ReadP.val_main_cst_7 ReadP.val_main_cst_8 ReadP.val_main_cst_9 ReadP.val_main_cst_10 ReadP.val_main_cst_11 ReadP.val_main_cst_12 ReadP.val_main_cst_13 ReadP.val_main_cst_14 ReadP.val_main_cst_15
    Cert.Spec.tailOf
  rfl

end Cert.RefTail

end
-- ==== Proof.RefLemmas.lean ====
/-
  The reference's operations that are read by hand, each at one entry over the extended reals: the maximum over the
  classes as a fold of `max`; a sum over the two pixel axes as the double sum over rows and columns; a sum over a
  rank-3 index set as the triple sum over its coordinates; a reduction by `and` over an axis of extent one as the entry
  itself.
-/
import proofs.«421444_j54382875902255_3_alg».proof.Proof.Gen.ReferenceIdeal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Cert.RefLemmas

open Idealize.ShloMosaic Idealize.ShloMosaic.ValueIdx Cert.ReferenceIdeal Cert.ReferenceIdeal.Gen

/-! ### The maximum over the classes -/

/-- The score array with its class axis removed is the pixel array, which has an axis left. -/
theorem reduces_classes : S16x9x512x512.Reduces [1] S16x512x512 := by decide

/-- The pixel `(b, h, w)` with the class `c` inserted on the class axis is the entry `(b, c, h, w)`. -/
theorem lift_classes (b : Fin 16) (h w : Fin 512) (c : Fin 9) :
    reduces_classes.lift (ix3 b h w) c = ix4 b c h w := by
  funext d
  match d with
  | ⟨0, _⟩ => rfl
  | ⟨1, _⟩ => rfl
  | ⟨2, _⟩ => rfl
  | ⟨3, _⟩ => rfl

/-- The largest class score of a pixel, from the initial value `v`. -/
theorem reduce_max_apply (x : S16x9x512x512.Idx → EReal) (v : S_.Idx → EReal) (b : Fin 16) (h w : Fin 512) :
    Host.reduce (FloatOps.maximumf (F := Ideal) (φ := .f32)) x v reducesTo_S16x9x512x512_S16x512x512_d1 h_S_ (ix3 b h w)
      = (Finset.univ : Finset (Fin 9)).fold max (v ix0) (fun c => x (ix4 b c h w)) := by
  rw [Host.reduce_eq_fold_single _ x v reducesTo_S16x9x512x512_S16x512x512_d1 reduces_classes h_S_ (ix3 b h w)]
  have e1 : Shape.Idx.first h_S_ = ix0 := eq_ix0 _
  have e2 : (x ∘ reduces_classes.lift (ix3 b h w)) = fun c : Fin 9 => x (ix4 b c h w) :=
    funext fun c => congrArg x (lift_classes b h w c)
  rw [e1, e2]
  rfl

/-! ### The sum over the two pixel axes -/

/-- Removing the two pixel coordinates of `(b, c, h, w)` leaves `(b, c)`. -/
theorem drop_pixels (b : Fin 16) (c : Fin 9) (h w : Fin 512) :
    reducesTo_S16x9x512x512_S16x9_d2_3.drop (ix4 b c h w) = ix2 b c := by
  funext a
  match a with
  | ⟨0, _⟩ => rfl
  | ⟨1, _⟩ => rfl

/-- An entry whose pixel coordinates removed leave `j` is `j` with the entry's own pixel coordinates. -/
theorem eq_ix4_of_drop_pixels (i : S16x9x512x512.Idx) (j : S16x9.Idx)
    (e : reducesTo_S16x9x512x512_S16x9_d2_3.drop i = j) : i = ix4 (j 0) (j 1) (i 2) (i 3) := by
  subst e
  funext a
  match a with
  | ⟨0, _⟩ => rfl
  | ⟨1, _⟩ => rfl
  | ⟨2, _⟩ => rfl
  | ⟨3, _⟩ => rfl

/-- The pixels, as the entries of row `b` and class `c`. -/
def pixelEmb (b : Fin 16) (c : Fin 9) : Fin 512 × Fin 512 ↪ S16x9x512x512.Idx :=
  ⟨fun p => ix4 b c p.1 p.2, fun p q e => Prod.ext (congrFun e 2) (congrFun e 3)⟩

/-- The entries that reduce into `(b, c)` are exactly its pixels. -/
theorem filter_drop_pixels (b : Fin 16) (c : Fin 9) :
    Finset.univ.filter (fun i : S16x9x512x512.Idx => reducesTo_S16x9x512x512_S16x9_d2_3.drop i = ix2 b c)
      = Finset.univ.map (pixelEmb b c) := by
  ext i
  simp only [Finset.mem_filter, Finset.mem_univ, true_and, Finset.mem_map, pixelEmb, Function.Embedding.coeFn_mk]
  constructor
  · intro e
    exact ⟨(i 2, i 3), (eq_ix4_of_drop_pixels i (ix2 b c) e).symm⟩
  · rintro ⟨p, rfl⟩
    exact drop_pixels b c p.1 p.2

/-- A sum over both pixel axes at (row, class). -/
theorem reduceAdd_pixels_apply (x : S16x9x512x512.Idx → EReal) (v : S_.Idx → EReal) (b : Fin 16) (c : Fin 9) :
    Host.reduceAdd (F := Ideal) (φ := .f32) x v reducesTo_S16x9x512x512_S16x9_d2_3 h_S_ (ix2 b c)
      = v ix0 + ∑ h : Fin 512, ∑ w : Fin 512, x (ix4 b c h w) := by
  show Ideal.hostReduceAdd reducesTo_S16x9x512x512_S16x9_d2_3 x (v (Shape.Idx.first h_S_)) (ix2 b c) = _
  unfold Ideal.hostReduceAdd
  rw [filter_drop_pixels, Finset.sum_map, Fintype.sum_prod_type, show Shape.Idx.first h_S_ = ix0 from eq_ix0 _]
  rfl

/-! ### A sum over a rank-3 index set -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The reduction by `and` over the trailing unit axis -/

/-- The rank-5 array with its trailing axis removed is the rank-4 array, which has an axis left. -/
theorem reduces_unit : S16x1x512x512x1.Reduces [4] S16x1x512x512 := by decide

/-- The entry `(b, 0, h, w)` with the coordinate `k` inserted on the trailing axis is `(b, 0, h, w, k)`. -/
theorem lift_unit (b : Fin 16) (h w : Fin 512) (k : Fin 1) :
    reduces_unit.lift (ix4 b (0 : Fin 1) h w) k = ix5 b (0 : Fin 1) h w k := by
  funext d
  match d with
  | ⟨0, _⟩ => rfl
  | ⟨1, _⟩ => rfl
  | ⟨2, _⟩ => rfl
  | ⟨3, _⟩ => rfl
  | ⟨4, _⟩ => rfl

/-- On one-bit words `and` with `true` changes nothing. -/
theorem andi_one (a : BitVec 1) : IntOp.andi a 1#1 = a := by
  revert a; decide

/-- A fold over an index set of one element combines that element's value with the initial value. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]
  rfl

/-- A reduction by `and` from `true` over the trailing axis of extent one is the entry. -/
theorem reduce_and_unit_apply (x : S16x1x512x512x1.Idx → BitVec 1) (b : Fin 16) (h w : Fin 512) :
    Host.reduce IntOp.andi x (constantI S_ 1 1#1) reducesTo_S16x1x512x512x1_S16x1x512x512_d4 h_S_ (ix4 b (0 : Fin 1) h w)
      = x (ix5 b (0 : Fin 1) h w (0 : Fin 1)) := by
  rw [Host.reduce_eq_fold_single IntOp.andi x (constantI S_ 1 1#1) reducesTo_S16x1x512x512x1_S16x1x512x512_d4
    reduces_unit h_S_ (ix4 b (0 : Fin 1) h w)]
  have e2 : (x ∘ reduces_unit.lift (ix4 b (0 : Fin 1) h w)) = fun k : Fin 1 => x (ix5 b (0 : Fin 1) h w k) :=
    funext fun k => congrArg x (lift_unit b h w k)
  rw [e2]
  exact (fold_fin_one IntOp.andi _ _).trans (andi_one _)

end Cert.RefLemmas

end
-- ==== Proof.RefPixel.lean ====
/-
  The reference's per-pixel values, read at one entry over the extended reals: the score shifted by the pixel's largest
  (computed twice, once for the logarithm of the softmax and once for the softmax), the exponentials' sum over the
  classes, the softmax probability, the one-hot value of the label, and the logarithm of the softmax.
-/
import proofs.«421444_j54382875902255_3_alg».proof.Proof.RefRead
import proofs.«421444_j54382875902255_3_alg».proof.Proof.RefLemmas
import proofs.«421444_j54382875902255_3_alg».proof.Proof.Spec
import Idealize.ShloMosaic.Lib.StableHlo.Predicate

noncomputable section

open scoped BigOperators

namespace Cert.RefPixel

open Idealize.ShloMosaic Idealize.ShloMosaic.ValueIdx Cert.ReferenceIdeal Cert.ReferenceIdeal.Gen

open Cert.ReferenceIdeal.ReadP

/-- The word of −∞ denotes the least extended real. -/
theorem negInf_eq_bot : Ideal.ofBits .f32 0xFF800000#32 = (⊥ : EReal) := by
  simp [Ideal.ofBits, Ideal.ieee]

/-- The word of +0 denotes zero, as the float operations' own constant. -/
theorem zero_word : (FloatOps.ofBits (F := Ideal) .f32 0x00000000#32 : EReal) = 0 := Ideal.ofBits_zero_f32

/-- The pixel's largest score, in the softmax: the maximum with −∞ of the fold from −∞ is that fold. -/
theorem ref_top (x : (⟨4, ![16, 9, 512, 512]⟩ : Shape).Idx → EReal) (b : Fin 16) (h w : Fin 512) :
    val_main_v9 (F := Ideal) x (ix3 b h w) = Cert.Spec.top (B := 16) (C := 9) (H := 512) (W := 512) x b h w := by
  rw [val_main_v9_apply, val_main_v8_apply, val_main_cst_2_apply]
  unfold val_main_v7
  rw [Cert.RefLemmas.reduce_max_apply, val_main_cst_1_apply]
  unfold Cert.Spec.top
  exact max_eq_right (by rw [show (FloatOps.ofBits (F := Ideal) .f32 0xFF800000#32 : EReal) = ⊥ from negInf_eq_bot]; exact bot_le)

/-- The same in the logarithm of the softmax. -/
theorem ref_top' (x : (⟨4, ![16, 9, 512, 512]⟩ : Shape).Idx → EReal) (b : Fin 16) (h w : Fin 512) :
    val_main_call0_v2 (F := Ideal) x (ix3 b h w) = Cert.Spec.top (B := 16) (C := 9) (H := 512) (W := 512) x b h w := by
  rw [val_main_call0_v2_apply, val_main_call0_v1_apply, val_main_call0_cst_0_apply]
  unfold val_main_call0_v0
  rw [Cert.RefLemmas.reduce_max_apply, val_main_call0_cst_apply]
  unfold Cert.Spec.top
  exact max_eq_right (by rw [show (FloatOps.ofBits (F := Ideal) .f32 0xFF800000#32 : EReal) = ⊥ from negInf_eq_bot]; exact bot_le)

/-- The two broadcasts along the class axis read the pixel array at the entry's pixel. -/
theorem idx_v10_v11 (b : Fin 16) (c : Fin 9) (h w : Fin 512) :
    idx_main_v10 (idx_main_v11 (ix4 b c h w)) = ix3 b h w :=
  funext fun a => by match a with | ⟨0, _⟩ => rfl | ⟨1, _⟩ => rfl | ⟨2, _⟩ => rfl

theorem idx_c0v3_c0v4 (b : Fin 16) (c : Fin 9) (h w : Fin 512) :
    idx_main_call0_v3 (idx_main_call0_v4 (ix4 b c h w)) = ix3 b h w :=
  funext fun a => by match a with | ⟨0, _⟩ => rfl | ⟨1, _⟩ => rfl | ⟨2, _⟩ => rfl

theorem idx_v15_v16 (b : Fin 16) (c : Fin 9) (h w : Fin 512) :
    idx_main_v15 (idx_main_v16 (ix4 b c h w)) = ix3 b h w :=
  funext fun a => by match a with | ⟨0, _⟩ => rfl | ⟨1, _⟩ => rfl | ⟨2, _⟩ => rfl

theorem idx_c0v8_c0v10 (b : Fin 16) (c : Fin 9) (h w : Fin 512) :
    idx_main_call0_v8 (idx_main_call0_v10 (ix4 b c h w)) = ix3 b h w :=
  funext fun a => by match a with | ⟨0, _⟩ => rfl | ⟨1, _⟩ => rfl | ⟨2, _⟩ => rfl

/-- The class sum reads the pixel's entry of class k. -/
theorem idx_v14 (b : Fin 16) (h w : Fin 512) (k : Fin 9) : idx_main_v14 (ix3 b h w) k = ix4 b k h w :=
  funext fun a => by match a with | ⟨0, _⟩ => rfl | ⟨1, _⟩ => rfl | ⟨2, _⟩ => rfl | ⟨3, _⟩ => rfl

theorem idx_c0v7 (b : Fin 16) (h w : Fin 512) (k : Fin 9) : idx_main_call0_v7 (ix3 b h w) k = ix4 b k h w :=
  funext fun a => by match a with | ⟨0, _⟩ => rfl | ⟨1, _⟩ => rfl | ⟨2, _⟩ => rfl | ⟨3, _⟩ => rfl

/-- The label's two broadcasts read the label array at the entry's pixel. -/
theorem idx_c2v0_c2v2 (b : Fin 16) (c : Fin 9) (h w : Fin 512) :
    idx_main_call2_v0 (idx_main_call2_v2 (ix4 b c h w)) = ix3 b h w :=
  funext fun a => by match a with | ⟨0, _⟩ => rfl | ⟨1, _⟩ => rfl | ⟨2, _⟩ => rfl

/-- A one-bit word other than one is zero. -/
theorem bit_eq_zero_of_ne_one : ∀ v : BitVec 1, v ≠ 1#1 → v = 0#1 := by decide

/-- The shifted score, as the softmax computes it. -/
theorem ref_shifted (x : (⟨4, ![16, 9, 512, 512]⟩ : Shape).Idx → EReal) (b : Fin 16) (c : Fin 9) (h w : Fin 512) :
    Cert.ReferenceIdeal.ReadP.val_main_v12 (F := Ideal) x (ix4 b c h w) = Cert.Spec.shifted (B := 16) (C := 9) (H := 512) (W := 512) x b c h w := by
  rw [val_main_v12_apply, val_main_v11_apply, val_main_v10_apply, idx_v10_v11, ref_top]
  rfl

/-- The shifted score, as the logarithm of the softmax computes it. -/
theorem ref_shifted' (x : (⟨4, ![16, 9, 512, 512]⟩ : Shape).Idx → EReal) (b : Fin 16) (c : Fin 9) (h w : Fin 512) :
    Cert.ReferenceIdeal.ReadP.val_main_call0_v5 (F := Ideal) x (ix4 b c h w) = Cert.Spec.shifted (B := 16) (C := 9) (H := 512) (W := 512) x b c h w := by
  rw [val_main_call0_v5_apply, val_main_call0_v4_apply, val_main_call0_v3_apply, idx_c0v3_c0v4, ref_top']
  rfl

/-- The exponentials' sum over the classes, in the softmax. -/
theorem ref_tot (x : (⟨4, ![16, 9, 512, 512]⟩ : Shape).Idx → EReal) (b : Fin 16) (h w : Fin 512) :
    Cert.ReferenceIdeal.ReadP.val_main_v14 (F := Ideal) x (ix3 b h w) = Cert.Spec.tot (B := 16) (C := 9) (H := 512) (W := 512) x b h w := by
  rw [val_main_v14_apply, val_main_cst_3_apply, zero_word, zero_add]
  unfold Cert.Spec.tot
  refine Finset.sum_congr rfl fun k _ => ?_
  rw [idx_v14, val_main_v13_apply, ref_shifted]
  rfl

/-- The same sum in the logarithm of the softmax. -/
theorem ref_tot' (x : (⟨4, ![16, 9, 512, 512]⟩ : Shape).Idx → EReal) (b : Fin 16) (h w : Fin 512) :
    Cert.ReferenceIdeal.ReadP.val_main_call0_v7 (F := Ideal) x (ix3 b h w) = Cert.Spec.tot (B := 16) (C := 9) (H := 512) (W := 512) x b h w := by
  rw [val_main_call0_v7_apply, val_main_call0_cst_1_apply, zero_word, zero_add]
  unfold Cert.Spec.tot
  refine Finset.sum_congr rfl fun k _ => ?_
  rw [idx_c0v7, val_main_call0_v6_apply, ref_shifted']
  rfl

/-- The softmax probability. -/
theorem ref_prob (x : (⟨4, ![16, 9, 512, 512]⟩ : Shape).Idx → EReal) (b : Fin 16) (c : Fin 9) (h w : Fin 512) :
    Cert.ReferenceIdeal.ReadP.val_main_v17 (F := Ideal) x (ix4 b c h w) = Cert.Spec.prob (B := 16) (C := 9) (H := 512) (W := 512) x b c h w := by
  rw [val_main_v17_apply, val_main_v16_apply, val_main_v15_apply, idx_v15_v16, ref_tot, val_main_v13_apply, ref_shifted]
  rfl

/-- The one-hot value of the label: one where the label is the class, zero elsewhere. -/
theorem ref_onehot (t : (⟨3, ![16, 512, 512]⟩ : Shape).Idx → BitVec 32) (b : Fin 16) (c : Fin 9) (h w : Fin 512) :
    Cert.ReferenceIdeal.ReadP.val_main_v18 (F := Ideal) t (ix4 b c h w)
      = if Cert.Spec.hit (B := 16) (C := 9) (H := 512) (W := 512) t b c h w then (1 : EReal) else 0 := by
  rw [val_main_v18_apply, val_main_call2_v4_apply, val_main_call2_v2_apply, val_main_call2_v0_apply, idx_c2v0_c2v2,
    val_main_call2_v3_apply, val_main_call2_v1_apply]
  show FloatOps.uitofp (F := Ideal) .f32 (IntOp.cmpi .eq (t (ix3 b h w)) (BitVec.ofNat 32 c.val)) = _
  by_cases e : Cert.Spec.hit (B := 16) (C := 9) (H := 512) (W := 512) t b c h w
  · rw [if_pos e, StableHlo.Predicate.cmpi_eq_iff.mpr e]
    show (((1#1 : BitVec 1).toNat : ℝ) : EReal) = 1
    simp
  · rw [if_neg e, bit_eq_zero_of_ne_one _ (fun h1 => e (StableHlo.Predicate.cmpi_eq_iff.mp h1))]
    show (((0#1 : BitVec 1).toNat : ℝ) : EReal) = 0
    simp

/-- The logarithm of the softmax: the shifted score minus the logarithm of the exponentials' sum. -/
theorem ref_logp (x : (⟨4, ![16, 9, 512, 512]⟩ : Shape).Idx → EReal) (b : Fin 16) (c : Fin 9) (h w : Fin 512) :
    Cert.ReferenceIdeal.ReadP.val_main_v0 (F := Ideal) x (ix4 b c h w)
      = Cert.Spec.shifted (B := 16) (C := 9) (H := 512) (W := 512) x b c h w
        - Ideal.log (Cert.Spec.tot (B := 16) (C := 9) (H := 512) (W := 512) x b h w) := by
  rw [val_main_v0_apply, ref_shifted', val_main_call0_v10_apply, val_main_call0_v9_apply, val_main_call0_v8_apply,
    idx_c0v8_c0v10, ref_tot']
  rfl

end Cert.RefPixel

end
-- ==== Proof.RefGather.lean ====
/-
  The reference's gather along the class axis, read at one entry: entry (b, 0, h, w) of its result is the operand at
  row b, pixel (h, w) and the class the start index at (b, 0, h, w, 0) names, read as a signed integer and clamped to 0 … 8.
-/
import proofs.«421444_j54382875902255_3_alg».proof.Proof.Gen.ReferenceIdeal
import Idealize.ShloMosaic.Lib.ValueIdx

noncomputable section

open scoped BigOperators

namespace Cert.RefGather

open Idealize.ShloMosaic Idealize.ShloMosaic.ValueIdx Cert.ReferenceIdeal Cert.ReferenceIdeal.Gen

local notation "D" => gather_S16x9x512x512_S16x1x512x512x1_S16x1x512x512_n_1_023_023_1_4_1111

/-- No operand axis is kept: axis 1 is collapsed and axes 0, 2, 3 are batching axes. -/
private theorem sKept_eq : (D).sKept = [] := by decide

/-- Axis 0 is not in the start index map: the slice starts at 0 there. -/
private theorem start0 (j : S16x1x512x512.Idx) (idx : IVec S16x1x512x512x1 32) : GatherDims.start D j idx 0 = 0 := by
  unfold GatherDims.start; rw [dif_neg (by decide)]
/-- Axis 2 is not in the start index map. -/
private theorem start2 (j : S16x1x512x512.Idx) (idx : IVec S16x1x512x512x1 32) : GatherDims.start D j idx 2 = 0 := by
  unfold GatherDims.start; rw [dif_neg (by decide)]
/-- Axis 3 is not in the start index map. -/
private theorem start3 (j : S16x1x512x512.Idx) (idx : IVec S16x1x512x512x1 32) : GatherDims.start D j idx 3 = 0 := by
  unfold GatherDims.start; rw [dif_neg (by decide)]
/-- No operand axis is kept (axis 1 is collapsed, the others are batching): every offset coordinate is 0. -/
private theorem off_zero (j : S16x1x512x512.Idx) (a : Fin 4) : GatherDims.offCoord D j a = 0 := by
  apply GatherDims.offCoord_eq_zero
  rw [sKept_eq]; exact List.not_mem_nil
/-- Axis 1 is not a batching axis. -/
private theorem batch1 (j : S16x1x512x512.Idx) : GatherDims.batchCoord D j 1 = 0 := by
  apply GatherDims.batchCoord_eq_zero
  decide
/-- Batching axis 0 reads the result's coordinate 0. -/
private theorem batch0 (j : S16x1x512x512.Idx) : GatherDims.batchCoord D j 0 = (j 0).val := by
  unfold GatherDims.batchCoord
  rw [dif_pos (by decide)]
  rfl
/-- Batching axis 2 reads the result's coordinate 2. -/
private theorem batch2 (j : S16x1x512x512.Idx) : GatherDims.batchCoord D j 2 = (j 2).val := by
  unfold GatherDims.batchCoord
  rw [dif_pos (by decide)]
  rfl
/-- Batching axis 3 reads the result's coordinate 3. -/
private theorem batch3 (j : S16x1x512x512.Idx) : GatherDims.batchCoord D j 3 = (j 3).val := by
  unfold GatherDims.batchCoord
  rw [dif_pos (by decide)]
  rfl
/-- Axis 1 is the one the start index names. -/
private theorem mem1 : (1 : Fin 4) ∈ (D).startIndexMap := by decide
/-- The start-indices entry the result entry (b, 0, h, w) reads for its one component: (b, 0, h, w, 0). -/
private theorem siIdx_eq (b : Fin 16) (h w : Fin 512) :
    GatherDims.siIdx D (ix4 b (0 : Fin 1) h w) ⟨List.idxOf (1 : Fin 4) (D).startIndexMap, List.idxOf_lt_length_iff.2 mem1⟩
      = ix5 b (0 : Fin 1) h w (0 : Fin 1) := by
  funext c; refine Fin.ext ?_
  match c with
  | ⟨0, _⟩ => rfl
  | ⟨1, _⟩ => rfl
  | ⟨2, _⟩ => rfl
  | ⟨3, _⟩ => rfl
  | ⟨4, _⟩ => rfl
/-- On the class axis the slice starts at the start index read signed and clamped to 0 … 8. -/
private theorem start1 (idx : IVec S16x1x512x512x1 32) (b : Fin 16) (h w : Fin 512) :
    GatherDims.start D (ix4 b (0 : Fin 1) h w) idx 1 = min (idx (ix5 b (0 : Fin 1) h w (0 : Fin 1))).toInt.toNat 8 := by
  unfold GatherDims.start
  rw [dif_pos mem1, siIdx_eq]
  rfl

/-- The gather along the class axis at an entry. -/
theorem gather_apply (x : S16x9x512x512.Idx → EReal) (idx : IVec S16x1x512x512x1 32) (b : Fin 16) (h w : Fin 512) :
    Host.gather gather_S16x9x512x512_S16x1x512x512x1_S16x1x512x512_n_1_023_023_1_4_1111 x idx (ix4 b (0 : Fin 1) h w)
      = x (ix4 b ⟨min (idx (ix5 b (0 : Fin 1) h w (0 : Fin 1))).toInt.toNat 8, by omega⟩ h w) := by
  unfold Host.gather
  congr 1
  funext a
  refine Fin.ext ?_
  match a with
  | ⟨0, _⟩ =>
    show GatherDims.start D (ix4 b (0 : Fin 1) h w) idx 0 + GatherDims.batchCoord D (ix4 b (0 : Fin 1) h w) 0
      + GatherDims.offCoord D (ix4 b (0 : Fin 1) h w) 0 = b.val
    rw [start0, batch0, off_zero, Nat.zero_add, Nat.add_zero]
  | ⟨1, _⟩ =>
    show GatherDims.start D (ix4 b (0 : Fin 1) h w) idx 1 + GatherDims.batchCoord D (ix4 b (0 : Fin 1) h w) 1
      + GatherDims.offCoord D (ix4 b (0 : Fin 1) h w) 1 = min (idx (ix5 b (0 : Fin 1) h w (0 : Fin 1))).toInt.toNat 8
    rw [start1, batch1, off_zero, Nat.add_zero]
  | ⟨2, _⟩ =>
    show GatherDims.start D (ix4 b (0 : Fin 1) h w) idx 2 + GatherDims.batchCoord D (ix4 b (0 : Fin 1) h w) 2
      + GatherDims.offCoord D (ix4 b (0 : Fin 1) h w) 2 = h.val
    rw [start2, batch2, off_zero, Nat.zero_add, Nat.add_zero]
  | ⟨3, _⟩ =>
    show GatherDims.start D (ix4 b (0 : Fin 1) h w) idx 3 + GatherDims.batchCoord D (ix4 b (0 : Fin 1) h w) 3
      + GatherDims.offCoord D (ix4 b (0 : Fin 1) h w) 3 = w.val
    rw [start3, batch3, off_zero, Nat.zero_add, Nat.add_zero]

end Cert.RefGather

end
-- ==== Proof.RefPick.lean ====
/-
  The reference's cross-entropy of a pixel: minus the logarithm of the softmax at the labelled class, picked by a
  gather along the class axis. For real scores and a label among the nine classes this is the specification's
  cross-entropy: the label is not negative, so it is not wrapped; it is in range, so the gathered value is kept; the
  gather reads the class the label names; and minus (shifted − log) is log − shifted for a real shifted score.
-/
import proofs.«421444_j54382875902255_3_alg».proof.Proof.RefPixel
import proofs.«421444_j54382875902255_3_alg».proof.Proof.RefGather
import Idealize.ShloMosaic.Lib.StableHlo.Predicate

noncomputable section

open scoped BigOperators

namespace Cert.RefPick

open Idealize.ShloMosaic Idealize.ShloMosaic.ValueIdx Cert.ReferenceIdeal Cert.ReferenceIdeal.Gen

open Idealize.ShloMosaic.StableHlo.Predicate in
/-- A label below 9 is not negative as a signed word. -/
private theorem not_slt_zero (L : BitVec 32) (hL : L.toNat < 9) : IntOp.cmpi .slt L 0#32 = 0#1 := by
  apply eq_zero_of_ne_one
  intro hc
  have h1 := (slt_iff_toNat (a := L) (b := 0#32) (by omega) (by decide)).mp hc
  have h0 : (0#32 : BitVec 32).toNat = 0 := rfl
  omega

open Idealize.ShloMosaic.StableHlo.Predicate in
/-- A label below 9 is at least 0 as a signed word. -/
private theorem sge_zero (L : BitVec 32) (hL : L.toNat < 9) : IntOp.cmpi .sge L 0#32 = 1#1 := by
  refine (sge_iff_toNat (a := L) (b := 0#32) (by omega) (by decide)).mpr ?_
  have h0 : (0#32 : BitVec 32).toNat = 0 := rfl
  omega

open Idealize.ShloMosaic.StableHlo.Predicate in
/-- A label below 9 is at most 8 as a signed word. -/
private theorem sle_eight (L : BitVec 32) (hL : L.toNat < 9) : IntOp.cmpi .sle L 8#32 = 1#1 := by
  refine (sle_iff_toNat (a := L) (b := 8#32) (by omega) (by decide)).mpr ?_
  have h8 : (8#32 : BitVec 32).toNat = 8 := rfl
  omega

open Idealize.ShloMosaic.StableHlo.Predicate in
/-- A label below 9, read signed and clamped to 0 … 8, is itself. -/
private theorem clamp_label (L : BitVec 32) (hL : L.toNat < 9) : min L.toInt.toNat 8 = L.toNat := by
  rw [toInt_eq_toNat_of_lt (a := L) (by omega), Int.toNat_natCast]
  omega

/-- The pixel (b, h, w) of the picked values is the entry (b, 0, h, w) before the unit class axis is dropped. -/
private theorem idx_v3 (b : Fin 16) (h w : Fin 512) : ReadP.idx_main_v3 (ix3 b h w) = ix4 b (0 : Fin 1) h w := by
  funext a; refine Fin.ext ?_
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- The start-indices entry (b, 0, h, w, 0) is the entry (b, 0, h, w) before the trailing unit axis is added. -/
private theorem idx_v5 (b : Fin 16) (h w : Fin 512) :
    ReadP.idx_main_call1_v5 (ix5 b (0 : Fin 1) h w (0 : Fin 1)) = ix4 b (0 : Fin 1) h w := by
  funext a; refine Fin.ext ?_
  have hb := b.isLt; have hh := h.isLt; have hw := w.isLt
  match a with
  | ⟨0, _⟩ => show ((((b.val * 1 + 0) * 512 + h.val) * 512 + w.val) * 1 + 0) / 262144 = b.val; omega
  | ⟨1, _⟩ => rfl
  | ⟨2, _⟩ => show ((((b.val * 1 + 0) * 512 + h.val) * 512 + w.val) * 1 + 0) / 512 % 512 = h.val; omega
  | ⟨3, _⟩ => show ((((b.val * 1 + 0) * 512 + h.val) * 512 + w.val) * 1 + 0) % 512 = w.val; omega

/-- The entry (b, 0, h, w) of the labels broadcast along a unit class axis is the label of the pixel (b, h, w). -/
private theorem idx_v1 (b : Fin 16) (h w : Fin 512) : ReadP.idx_main_v1 (ix4 b (0 : Fin 1) h w) = ix3 b h w := by
  funext a
  match a with
  | ⟨0, _⟩ => rfl
  | ⟨1, _⟩ => rfl
  | ⟨2, _⟩ => rfl

/-- The broadcast label at (b, 0, h, w). -/
private theorem label_apply (t : (⟨3, ![16, 512, 512]⟩ : Shape).Idx → BitVec 32) (b : Fin 16) (h w : Fin 512) :
    ReadP.val_main_v1 (F := Ideal) t (ix4 b (0 : Fin 1) h w) = t (ix3 b h w) := by
  rw [ReadP.val_main_v1_apply, idx_v1]

/-- A label below 9 is not wrapped: the start index at (b, 0, h, w) is the label. -/
private theorem wrapped_apply (t : (⟨3, ![16, 512, 512]⟩ : Shape).Idx → BitVec 32) (hlab : ∀ i, (t i).toNat < 9) (b : Fin 16) (h w : Fin 512) :
    ReadP.val_main_call1_v4 (F := Ideal) t (ix4 b (0 : Fin 1) h w) = t (ix3 b h w) := by
  rw [ReadP.val_main_call1_v4_apply, ReadP.val_main_call1_v1_apply, label_apply]
  have e0 : ReadP.val_main_call1_v0 (F := Ideal) (ix4 b (0 : Fin 1) h w) = 0#32 := by
    rw [ReadP.val_main_call1_v0_apply, ReadP.val_main_call1_c_apply]
  rw [e0, not_slt_zero _ (hlab _), select_zero]

/-- The start index at (b, 0, h, w, 0) is the label. -/
private theorem start_apply (t : (⟨3, ![16, 512, 512]⟩ : Shape).Idx → BitVec 32) (hlab : ∀ i, (t i).toNat < 9) (b : Fin 16) (h w : Fin 512) :
    ReadP.val_main_call1_v5 (F := Ideal) t (ix5 b (0 : Fin 1) h w (0 : Fin 1)) = t (ix3 b h w) := by
  rw [ReadP.val_main_call1_v5_apply, idx_v5, wrapped_apply t hlab]

/-- The label is in range: the bit that keeps the gathered value is 1. -/
private theorem inrange_apply (t : (⟨3, ![16, 512, 512]⟩ : Shape).Idx → BitVec 32) (hlab : ∀ i, (t i).toNat < 9) (b : Fin 16) (h w : Fin 512) :
    ReadP.val_main_call1_v12 (F := Ideal) t (ix4 b (0 : Fin 1) h w) = 1#1 := by
  unfold ReadP.val_main_call1_v12 ReadP.val_main_call1_c_3
  rw [Cert.RefLemmas.reduce_and_unit_apply, ReadP.val_main_call1_v11_apply, ReadP.val_main_call1_v7_apply,
    ReadP.val_main_call1_v10_apply, start_apply t hlab]
  have e6 : ReadP.val_main_call1_v6 (F := Ideal) (ix5 b (0 : Fin 1) h w (0 : Fin 1)) = 0#32 := by
    rw [ReadP.val_main_call1_v6_apply, ReadP.val_main_call1_c_2_apply]
  have e9 : ReadP.val_main_call1_v9 (F := Ideal) (ix5 b (0 : Fin 1) h w (0 : Fin 1)) = 8#32 := by
    rw [ReadP.val_main_call1_v9_apply, ReadP.val_main_call1_v8_apply, ReadP.val_main_call1_c_1_apply]
  rw [e6, e9, sge_zero _ (hlab _), sle_eight _ (hlab _)]
  rfl

/-- The word of −∞ denotes ⊥. -/
private theorem ofBits_neg_inf : Ideal.ofBits .f32 0xFF800000#32 = (⊥ : EReal) := by
  simp only [Ideal.ofBits, Ideal.ieee, BitVec.reduceExtractLsb', BitVec.toNat_ofNat, Nat.reducePow,
    Nat.mod_succ, Nat.add_one_sub_one, ↓reduceIte, Nat.zero_mod, Nat.reduceAdd, BEq.rfl]

/-- For real scores the largest score of a pixel is one of them, so a real. -/
private theorem top_real (x : (⟨4, ![16, 9, 512, 512]⟩ : Shape).Idx → EReal) (hfin : ∀ i, ∃ v : ℝ, x i = (v : EReal))
    (b : Fin 16) (h w : Fin 512) :
    ∃ r : ℝ, Cert.Spec.top (B := 16) (C := 9) (H := 512) (W := 512) x b h w = (r : EReal) := by
  have e : Cert.Spec.top (B := 16) (C := 9) (H := 512) (W := 512) x b h w
      = (Finset.univ : Finset (Fin 9)).sup (fun c => x (ix4 b c h w)) := by
    unfold Cert.Spec.top
    rw [ofBits_neg_inf]
    rfl
  obtain ⟨i, -, hi⟩ := Finset.exists_mem_eq_sup (Finset.univ : Finset (Fin 9)) Finset.univ_nonempty (fun c => x (ix4 b c h w))
  obtain ⟨v, hv⟩ := hfin (ix4 b i h w)
  exact ⟨v, by rw [e, hi, hv]⟩

/-- For real scores the shifted score is a real. -/
private theorem shifted_real (x : (⟨4, ![16, 9, 512, 512]⟩ : Shape).Idx → EReal) (hfin : ∀ i, ∃ v : ℝ, x i = (v : EReal))
    (b : Fin 16) (c : Fin 9) (h w : Fin 512) :
    ∃ r : ℝ, Cert.Spec.shifted (B := 16) (C := 9) (H := 512) (W := 512) x b c h w = (r : EReal) := by
  obtain ⟨m, hm⟩ := top_real x hfin b h w
  obtain ⟨v, hv⟩ := hfin (ix4 b c h w)
  refine ⟨v - m, ?_⟩
  unfold Cert.Spec.shifted
  rw [hm, hv]
  rfl

/-- Among the nine classes only the one the label names is hit: the picked score is its shifted score. -/
private theorem picked_eq (x : (⟨4, ![16, 9, 512, 512]⟩ : Shape).Idx → EReal) (t : (⟨3, ![16, 512, 512]⟩ : Shape).Idx → BitVec 32)
    (hlab : ∀ i, (t i).toNat < 9) (b : Fin 16) (h w : Fin 512) :
    Cert.Spec.picked (B := 16) (C := 9) (H := 512) (W := 512) x t b h w
      = Cert.Spec.shifted (B := 16) (C := 9) (H := 512) (W := 512) x b ⟨(t (ix3 b h w)).toNat, hlab _⟩ h w := by
  have hL := hlab (ix3 b h w)
  unfold Cert.Spec.picked
  rw [Finset.sum_eq_single (⟨(t (ix3 b h w)).toNat, hlab _⟩ : Fin 9)]
  · rw [if_pos]
    show t (ix3 b h w) = BitVec.ofNat 32 (t (ix3 b h w)).toNat
    apply BitVec.eq_of_toNat_eq
    rw [BitVec.toNat_ofNat]
    exact (Nat.mod_eq_of_lt (by omega)).symm
  · intro c _ hc
    rw [if_neg]
    intro hh
    apply hc
    apply Fin.ext
    show c.val = (t (ix3 b h w)).toNat
    have e : (t (ix3 b h w)).toNat = (BitVec.ofNat 32 c.val).toNat := congrArg BitVec.toNat hh
    rw [BitVec.toNat_ofNat] at e
    have hc9 := c.isLt
    omega
  · intro hn; exact absurd (Finset.mem_univ _) hn

/-- The gathered value at (b, 0, h, w): the operand at the class the label names. -/
private theorem gathered_apply (y : S16x9x512x512.Idx → EReal) (t : (⟨3, ![16, 512, 512]⟩ : Shape).Idx → BitVec 32)
    (hlab : ∀ i, (t i).toNat < 9) (b : Fin 16) (h w : Fin 512) :
    Host.gather gather_S16x9x512x512_S16x1x512x512x1_S16x1x512x512_n_1_023_023_1_4_1111 y
        (ReadP.val_main_call1_v5 (F := Ideal) t) (ix4 b (0 : Fin 1) h w)
      = y (ix4 b (⟨(t (ix3 b h w)).toNat, hlab _⟩ : Fin 9) h w) := by
  have hcong : ∀ c c' : Fin 9, c = c' → y (ix4 b c h w) = y (ix4 b c' h w) := fun _ _ e => e ▸ rfl
  refine (Cert.RefGather.gather_apply y _ b h w).trans (hcong _ _ (Fin.ext ?_))
  show min (ReadP.val_main_call1_v5 (F := Ideal) t (ix5 b (0 : Fin 1) h w (0 : Fin 1))).toInt.toNat 8 = (t (ix3 b h w)).toNat
  rw [start_apply t hlab]
  exact clamp_label _ (hlab _)

/-- The negated pick at a pixel is the pixel's cross-entropy. -/
theorem ref_negpick (x : (⟨4, ![16, 9, 512, 512]⟩ : Shape).Idx → EReal) (t : (⟨3, ![16, 512, 512]⟩ : Shape).Idx → BitVec 32) (hfin : ∀ i, ∃ v : ℝ, x i = (v : EReal)) (hlab : ∀ i, (t i).toNat < 9) (b : Fin 16) (h w : Fin 512) :
    Cert.ReferenceIdeal.ReadP.val_main_v4 (F := Ideal) x t (ix3 b h w) = Cert.Spec.ce (B := 16) (C := 9) (H := 512) (W := 512) x t b h w := by
  rw [ReadP.val_main_v4_apply, ReadP.val_main_v3_apply, idx_v3, ReadP.val_main_v2_apply, inrange_apply t hlab, select_one]
  unfold ReadP.val_main_call1_v13
  rw [gathered_apply _ t hlab, Cert.RefPixel.ref_logp]
  obtain ⟨r, hr⟩ := shifted_real x hfin b ⟨(t (ix3 b h w)).toNat, hlab _⟩ h w
  unfold Cert.Spec.ce
  rw [picked_eq x t hlab, hr]
  show -((r : EReal) - Ideal.log (Cert.Spec.tot (B := 16) (C := 9) (H := 512) (W := 512) x b h w))
    = Ideal.log (Cert.Spec.tot (B := 16) (C := 9) (H := 512) (W := 512) x b h w) - (r : EReal)
  rw [EReal.neg_sub (Or.inl (EReal.coe_ne_bot r)) (Or.inl (EReal.coe_ne_top r)), add_comm, sub_eq_add_neg]

end Cert.RefPick

end
-- ==== Proof.RefSums.lean ====
/-
  The reference's three reductions: the intersection and the cardinality of a (row, class) as sums over the pixels, and
  the total cross-entropy as the sum over the rows of each row's sum.
-/
import proofs.«421444_j54382875902255_3_alg».proof.Proof.RefPick

noncomputable section

open scoped BigOperators

namespace Cert.RefSums

open Idealize.ShloMosaic Idealize.ShloMosaic.ValueIdx Cert.ReferenceIdeal Cert.ReferenceIdeal.Gen

/-- The initial value of each of the four sums is the zero word, the extended real zero. -/
theorem cst_zero (i : S_.Idx) : Cert.ReferenceIdeal.ReadP.val_main_cst (F := Ideal) i = 0 := Ideal.ofBits_zero_f32
theorem cst_4_zero (i : S_.Idx) : Cert.ReferenceIdeal.ReadP.val_main_cst_4 (F := Ideal) i = 0 := Ideal.ofBits_zero_f32
theorem cst_5_zero (i : S_.Idx) : Cert.ReferenceIdeal.ReadP.val_main_cst_5 (F := Ideal) i = 0 := Ideal.ofBits_zero_f32
theorem cst_6_zero (i : S_.Idx) : Cert.ReferenceIdeal.ReadP.val_main_cst_6 (F := Ideal) i = 0 := Ideal.ofBits_zero_f32

/-- The intersection. -/
theorem ref_inter (x : (⟨4, ![16, 9, 512, 512]⟩ : Shape).Idx → EReal) (t : (⟨3, ![16, 512, 512]⟩ : Shape).Idx → BitVec 32) (b : Fin 16) (c : Fin 9) :
    Cert.ReferenceIdeal.ReadP.val_main_v20 (F := Ideal) x t (ix2 b c) = Cert.Spec.inter (B := 16) (C := 9) (H := 512) (W := 512) x t b c := by
  unfold Cert.ReferenceIdeal.ReadP.val_main_v20
  rw [Cert.RefLemmas.reduceAdd_pixels_apply, cst_4_zero, zero_add]
  unfold Cert.Spec.inter
  refine Finset.sum_congr rfl fun h _ => Finset.sum_congr rfl fun w _ => ?_
  show Cert.ReferenceIdeal.ReadP.val_main_v17 (F := Ideal) x (ix4 b c h w)
      * Cert.ReferenceIdeal.ReadP.val_main_v18 (F := Ideal) t (ix4 b c h w) = _
  rw [Cert.RefPixel.ref_prob, Cert.RefPixel.ref_onehot]
  by_cases hh : Cert.Spec.hit (B := 16) (C := 9) (H := 512) (W := 512) t b c h w
  · rw [if_pos hh, if_pos hh, mul_one]
  · rw [if_neg hh, if_neg hh, mul_zero]

/-- The cardinality. -/
theorem ref_card (x : (⟨4, ![16, 9, 512, 512]⟩ : Shape).Idx → EReal) (t : (⟨3, ![16, 512, 512]⟩ : Shape).Idx → BitVec 32) (b : Fin 16) (c : Fin 9) :
    Cert.ReferenceIdeal.ReadP.val_main_v23 (F := Ideal) x t (ix2 b c) = Cert.Spec.card (B := 16) (C := 9) (H := 512) (W := 512) x t b c := by
  show Cert.ReferenceIdeal.ReadP.val_main_v21 (F := Ideal) x (ix2 b c)
      + Cert.ReferenceIdeal.ReadP.val_main_v22 (F := Ideal) t (ix2 b c) = _
  unfold Cert.ReferenceIdeal.ReadP.val_main_v21 Cert.ReferenceIdeal.ReadP.val_main_v22
  rw [Cert.RefLemmas.reduceAdd_pixels_apply, Cert.RefLemmas.reduceAdd_pixels_apply, cst_5_zero, cst_6_zero,
    zero_add, zero_add]
  unfold Cert.Spec.card
  have h1 : (∑ h : Fin 512, ∑ w : Fin 512, Cert.ReferenceIdeal.ReadP.val_main_v17 (F := Ideal) x (ix4 b c h w))
      = ∑ h : Fin 512, ∑ w : Fin 512, Cert.Spec.prob (B := 16) (C := 9) (H := 512) (W := 512) x b c h w :=
    Finset.sum_congr rfl fun h _ => Finset.sum_congr rfl fun w _ => Cert.RefPixel.ref_prob x b c h w
  have h2 : (∑ h : Fin 512, ∑ w : Fin 512, Cert.ReferenceIdeal.ReadP.val_main_v18 (F := Ideal) t (ix4 b c h w))
      = ∑ h : Fin 512, ∑ w : Fin 512,
          if Cert.Spec.hit (B := 16) (C := 9) (H := 512) (W := 512) t b c h w then (1 : EReal) else 0 :=
    Finset.sum_congr rfl fun h _ => Finset.sum_congr rfl fun w _ => Cert.RefPixel.ref_onehot t b c h w
  rw [h1, h2]

/-- The total cross-entropy. -/
theorem ref_ce (x : (⟨4, ![16, 9, 512, 512]⟩ : Shape).Idx → EReal) (t : (⟨3, ![16, 512, 512]⟩ : Shape).Idx → BitVec 32) (hfin : ∀ i, ∃ v : ℝ, x i = (v : EReal)) (hlab : ∀ i, (t i).toNat < 9) :
    Cert.ReferenceIdeal.ReadP.val_main_v5 (F := Ideal) x t ix0 = ∑ b : Fin 16, Cert.Spec.ceRow (B := 16) (C := 9) (H := 512) (W := 512) x t b := by
  rw [Cert.ReferenceIdeal.ReadP.val_main_v5_apply, cst_zero, zero_add,
    Cert.RefLemmas.sum_idx3 (n0 := 16) (n1 := 512) (n2 := 512)]
  refine Finset.sum_congr rfl fun b _ => ?_
  unfold Cert.Spec.ceRow
  exact Finset.sum_congr rfl fun h _ => Finset.sum_congr rfl fun w _ => Cert.RefPick.ref_negpick x t hfin hlab b h w

end Cert.RefSums

end
-- ==== Proof.PreDecode.lean ====
/-
  What the precondition says, entry by entry: every score is a real number, and every label is one of the nine classes.
-/
import proofs.«421444_j54382875902255_3_alg».proof.Defs
import proofs.«421444_j54382875902255_3_alg».proof.Proof.Gen.KernelIdeal
import proofs.«421444_j54382875902255_3_alg».proof.Proof.Gen.Pre_finite_inputs
import Idealize.ShloMosaic.Lib.ReduceAll
import Idealize.ShloMosaic.Lib.StableHlo.Predicate
import Idealize.ShloMosaic.Lib.ValueIdx

noncomputable section

open scoped BigOperators

namespace Cert.PreDecode

open Idealize.ShloMosaic Idealize.ShloMosaic.TcCoe Idealize.ShloMosaic.ValueIdx Idealize.SL.Sem Cert.KernelIdeal

/-- The result of a reduction over every axis has one index. -/
instance : Subsingleton Cert.Pre_finite_inputs.S_.Idx := ⟨fun a b => funext fun d => d.elim0⟩

/-- The word 0x7F800000 denotes +∞. -/
theorem inf_bits : Ideal.ofBits .f32 0x7F800000#32 = ⊤ := by simp [Ideal.ofBits, Ideal.ieee]

/-- An extended real whose absolute value max(x, −x) tests below +∞ is a real number: −∞ has absolute value +∞,
    and so has +∞. -/
theorem real_of_abs_lt_inf (x : EReal) (h : Ideal.cmp .olt (max x (-x)) (Ideal.ofBits .f32 0x7F800000#32) = 1#1) :
    ∃ v : ℝ, x = (v : EReal) := by
  rw [inf_bits] at h
  unfold Ideal.cmp at h
  rw [StableHlo.Predicate.ofBool_eq_one_iff] at h
  simp only [decide_eq_true_eq] at h
  rw [max_lt_iff] at h
  induction x using EReal.rec with
  | bot => simp at h
  | top => simp at h
  | coe r => exact ⟨r, rfl⟩

/-- A word in [0, 9) read signed is below 9 read unsigned. -/
theorem toNat_lt_nine (w : BitVec 32) (h0 : IntOp.cmpi .sge w 0#32 = 1#1) (h9 : IntOp.cmpi .slt w 9#32 = 1#1) :
    w.toNat < 9 := by
  rw [IntOp.cmpi_sge, show (0#32 : BitVec 32).toInt = 0 from by decide] at h0
  rw [IntOp.cmpi_slt, show (9#32 : BitVec 32).toInt = 9 from by decide] at h9
  have hw := w.isLt
  rw [BitVec.toInt_eq_toNat_cond] at h0 h9
  split_ifs at h0 h9 <;> omega

variable (m : (ℓ : Loc nD τ sig) → Buf (Elt Ideal) ℓ)

/-- Every score is a real number. -/
theorem finite_of_pre (h : Cert.Pre_KernelIdeal (hPre_finite_inputs := Cert.Pre_finite_inputs.Gen.facts) m) (c : Dev nD)
    (i : S16x9x512x512.Idx) : ∃ v : ℝ, m ((c.tc : Thread nD τ).loc main_arg0) i = (v : EReal) := by
  -- the precondition's one bit is the conjunction of the all-scores bit and the all-labels bit
  have e := congrFun (h c) ValueIdx.ix0
  unfold Cert.Pre_finite_inputs.fn at e
  obtain ⟨e1, -⟩ := IntOp.andi_eq_one.1 e
  -- a conjunction over every entry that is one is one at entry i: |x i| tests below +∞
  exact real_of_abs_lt_inf _ (Host.reduce_andi_all _ _ _ _ _ e1 i)

/-- Every label is below nine (as an unsigned word: it is also non-negative as a signed one). -/
theorem labels_of_pre (h : Cert.Pre_KernelIdeal (hPre_finite_inputs := Cert.Pre_finite_inputs.Gen.facts) m) (c : Dev nD)
    (i : S16x512x512.Idx) : (m ((c.tc : Thread nD τ).loc main_arg1) i).toNat < 9 := by
  have e := congrFun (h c) ValueIdx.ix0
  unfold Cert.Pre_finite_inputs.fn at e
  obtain ⟨-, e2⟩ := IntOp.andi_eq_one.1 e
  -- at entry i both signed comparisons hold: 0 ≤ t i and t i < 9
  obtain ⟨h0, h9⟩ := IntOp.andi_eq_one.1 (Host.reduce_andi_all _ _ _ _ _ e2 i)
  exact toNat_lt_nine _ h0 h9

end Cert.PreDecode

end
-- ==== Proof.lean ====
/-
  The kernel streams [8, 9, 32, 512] tiles of the scores and [8, 32, 512] tiles of the labels, and per batch row keeps
  nineteen running statistics: for each of the nine classes the intersection (the softmax probability summed over the
  pixels labelled with the class) and the cardinality (all probabilities of the class plus the count of such pixels),
  and the row's cross-entropy sum; the closing arithmetic (the mean cross-entropy, the guarded dice quotients, their
  mean, the weighted sum) runs on the host. The reference computes the same three arrays from the whole tensors and
  applies the same closing arithmetic. Over the extended reals the two agree: every per-pixel quantity depends on its
  own pixel only, a sum over the pixel rows 0 … 511 is the sum over the sixteen tiles of the sum over a tile's 32 rows,
  and — for real scores and a label among the nine classes, which the precondition says — the reference's
  `−(shifted score of the label − log of the sum)` is the kernel's `log of the sum − shifted score of the label`.
  The two argument arrays are never written by either program.
-/
import proofs.«421444_j54382875902255_3_alg».proof.Defs
import proofs.«421444_j54382875902255_3_alg».proof.Proof.Gen.Kernel
import proofs.«421444_j54382875902255_3_alg».proof.Proof.Gen.Kernel.Frame
import proofs.«421444_j54382875902255_3_alg».proof.Proof.Gen.KernelIdeal
import proofs.«421444_j54382875902255_3_alg».proof.Proof.Gen.KernelIdeal.Frame
import proofs.«421444_j54382875902255_3_alg».proof.Proof.Gen.ReferenceIdeal
import proofs.«421444_j54382875902255_3_alg».proof.Proof.Gen.Pre_finite_inputs
import proofs.«421444_j54382875902255_3_alg».proof.Proof.KTail
import proofs.«421444_j54382875902255_3_alg».proof.Proof.RefStages
import proofs.«421444_j54382875902255_3_alg».proof.Proof.RefTail
import proofs.«421444_j54382875902255_3_alg».proof.Proof.RefSums
import proofs.«421444_j54382875902255_3_alg».proof.Proof.PreDecode
import Idealize.ShloMosaic.Adequacy
import Idealize.ShloMosaic.Init

noncomputable section

namespace Cert.Proof

open Idealize.ShloMosaic Idealize.ShloMosaic.ValueIdx Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the result dropped. -/
theorem frame_ri : Cert.frame_ReferenceIdeal := fun m ρ _ =>
  (θ_run Cert.ReferenceIdeal.defs _ _).mono (fun _ h c => (h c).2) (Cert.RefStages.run (F := Ideal) m ρ)

/-- The idealization rewrote nothing. -/
theorem preserves : Cert.preserves_Kernel_KernelIdeal := trivial

/-- From memories that agree on the scores and the labels both programs end with the same loss: the closing
    arithmetic of intersections, cardinalities and total cross-entropy that are equal entry by entry. -/
theorem algebraic : Cert.algebraic_KernelIdeal_ReferenceIdeal := by
  intro m ρ m' ρ' hpre hagree
  refine ⟨fun c => Cert.Spec.tailOf (F := Ideal) Cert.KernelIdeal.Facts₀.bcast_S_S16x9 Cert.KernelIdeal.Facts₀.reducesTo_S16x9_S_d0_1
      Cert.KernelIdeal.Facts₀.h_S_ (Cert.KTail.interK m c) (Cert.KTail.cardK m c) (Cert.KTail.ceK m c),
    Cert.KTail.kernel_run m ρ, ?_⟩
  refine (θ_run Cert.ReferenceIdeal.defs _ _).mono (fun _ h c => ⟨(h c).1.trans ?_, (h c).2⟩)
    (Cert.RefStages.run (F := Ideal) m' ρ')
  rw [(hagree c).1, (hagree c).2, Cert.RefTail.tail_eq]
  have hfin := Cert.PreDecode.finite_of_pre m hpre c
  have hlab := Cert.PreDecode.labels_of_pre m hpre c
  have hI : Cert.ReferenceIdeal.ReadP.val_main_v20 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KTail.interK m c :=
    funext fun i => by
      obtain ⟨b, k, rfl⟩ : ∃ (b : Fin 16) (k : Fin 9), i = ix2 b k := ⟨i 0, i 1, eq_ix2 i⟩
      rw [Cert.RefSums.ref_inter, Cert.KTail.interK_apply]
  have hC : Cert.ReferenceIdeal.ReadP.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KTail.cardK m c :=
    funext fun i => by
      obtain ⟨b, k, rfl⟩ : ∃ (b : Fin 16) (k : Fin 9), i = ix2 b k := ⟨i 0, i 1, eq_ix2 i⟩
      rw [Cert.RefSums.ref_card, Cert.KTail.cardK_apply]
  have hS : Cert.ReferenceIdeal.ReadP.val_main_v5 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KTail.ceK m c :=
    funext fun i => by
      rw [eq_ix0 i, Cert.RefSums.ref_ce _ _ hfin hlab, Cert.KTail.ceK_apply]
  rw [hI, hC, hS]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
